-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x160 : Shape := ⟨3, ![16, 2048, 160]⟩
abbrev S160x160 : Shape := ⟨2, ![160, 160]⟩
abbrev S160 : Shape := ⟨1, ![160]⟩
abbrev S_ : Shape := ⟨0, ![]⟩

class Facts : Prop where
  bcast_S_S16x2048x160 : S_.BroadcastsInDim S16x2048x160 (![] : Fin 0 → Fin S16x2048x160.rank)
  reducesTo_S16x2048x160_S_d0_1_2 : S16x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S16x2048x160 .f32) (main_arg1 : FVec F S16x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S16x2048x160 .f32 := Host.absf main_arg0
  let main_cst : FVec F S_ .f32 := constant S_ .f32 0x7F800000#32
  let main_v1 : FVec F S16x2048x160 .f32 := broadcastInDim S16x2048x160 ![] bcast_S_S16x2048x160 main_cst
  let main_v2 : IVec S16x2048x160 1 := cmpf .olt main_v0 main_v1
  let main_c : IVec S_ 1 := constantI S_ 1 1#1
  let main_v3 : IVec S_ 1 := (fun x v => Host.reduce IntOp.andi x v reducesTo_S16x2048x160_S_d0_1_2 h_S_) main_v2 main_c
  let main_v4 : FVec F S16x2048x160 .f32 := Host.absf main_arg1
  let main_cst_0 : FVec F S_ .f32 := constant S_ .f32 0x7F800000#32
  let main_v5 : FVec F S16x2048x160 .f32 := broadcastInDim S16x2048x160 ![] bcast_S_S16x2048x160 main_cst_0
  let main_v6 : IVec S16x2048x160 1 := cmpf .olt main_v4 main_v5
  let main_c_1 : IVec S_ 1 := constantI S_ 1 1#1
  let main_v7 : IVec S_ 1 := (fun x v => Host.reduce IntOp.andi x v reducesTo_S16x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S16x2048x160 : Shape := ⟨3, ![16, 2048, 160]⟩
abbrev S160x160 : Shape := ⟨2, ![160, 160]⟩
abbrev S160 : Shape := ⟨1, ![160]⟩
abbrev S1x160 : Shape := ⟨2, ![1, 160]⟩
abbrev S1x512x160 : Shape := ⟨3, ![1, 512, 160]⟩
abbrev S512x160 : Shape := ⟨2, ![512, 160]⟩
abbrev S1x2048x160 : Shape := ⟨3, ![1, 2048, 160]⟩
abbrev S2048x160 : Shape := ⟨2, ![2048, 160]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S16x2048x160, .f32⟩
  | .hbm, ⟨12, _⟩ => ⟨S16x2048x160, .f32⟩
  | .hbm, ⟨13, _⟩ => ⟨S16x2048x160, .f32⟩
  | .local _ .vmem, ⟨0, _⟩ => ⟨S1x512x160, .f32⟩
  | .local _ .vmem, ⟨1, _⟩ => ⟨S1x512x160, .f32⟩
  | .local _ .vmem, ⟨2, _⟩ => ⟨S160x160, .f32⟩
  | .local _ .vmem, ⟨3, _⟩ => ⟨S1x160, .f32⟩
  | .local _ .vmem, ⟨4, _⟩ => ⟨S160x160, .f32⟩
  | .local _ .vmem, ⟨5, _⟩ => ⟨S1x160, .f32⟩
  | .local _ .vmem, ⟨6, _⟩ => ⟨S1x512x160, .f32⟩
  | .local _ .vmem, ⟨7, _⟩ => ⟨S1x512x160, .f32⟩
  | .local _ .vmem, ⟨8, _⟩ => ⟨S1x512x160, .f32⟩
  | .local _ .vmem, ⟨9, _⟩ => ⟨S1x512x160, .f32⟩
  | .local _ .vmem, ⟨10, _⟩ => ⟨S1x512x160, .f32⟩
  | .local _ .vmem, ⟨11, _⟩ => ⟨S1x512x160, .f32⟩
  | .local _ .vmem, ⟨12, _⟩ => ⟨S160x160, .f32⟩
  | .local _ .vmem, ⟨13, _⟩ => ⟨S1x160, .f32⟩
  | .local _ .vmem, ⟨14, _⟩ => ⟨S1x2048x160, .f32⟩
  | .local _ .vmem, ⟨15, _⟩ => ⟨S1x2048x160, .f32⟩
  | .local _ .vmem, ⟨16, _⟩ => ⟨S1x2048x160, .f32⟩
  | .local _ .vmem, ⟨17, _⟩ => ⟨S1x2048x160, .f32⟩
  | .local _ .vmem, ⟨18, _⟩ => ⟨S1x512x160, .f32⟩
  | .local _ .vmem, ⟨19, _⟩ => ⟨S1x512x160, .f32⟩
  | _, _ => ⟨S16x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S160x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x160 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x160 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S160_S1x160 : S160.ShapeCasts S1x160
  inb_S1x512x160_S1x512x160_0_0_0 : ∀ a, (![0, 0, 0] : Fin 3 → Nat) a + S1x512x160.size a ≤ S1x512x160.size a
  h_S1x512x160 : 0 < S1x512x160.numel
  shapeCasts_S1x512x160_S512x160 : S1x512x160.ShapeCasts S512x160
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S512x160 : S1x160.Broadcasts S512x160
  shapeCasts_S512x160_S1x512x160 : S512x160.ShapeCasts S1x512x160
  inb_S1x2048x160_S1x2048x160_0_0_0 : ∀ a, (![0, 0, 0] : Fin 3 → Nat) a + S1x2048x160.size a ≤ S1x2048x160.size a
  h_S1x2048x160 : 0 < S1x2048x160.numel
  shapeCasts_S1x2048x160_S2048x160 : S1x2048x160.ShapeCasts S2048x160
  reduces_S512x2048_S512 : S512x2048.Reduces [1] S512
  shapeCasts_S512_S512x1 : S512.ShapeCasts S512x1
  broadcasts_S512x1_S512x2048 : S512x1.Broadcasts S512x2048
  broadcasts_S512x1_S512x160 : S512x1.Broadcasts S512x160
  dot_S512x160_S160x160_S512x160_1_0_0_1_n_n_wf : DotDims.WF S512x160 S160x160 S512x160 [1] [0] [0] [1] [] []
  dot_S512x160_S2048x160_S512x2048_1_1_0_0_n_n_wf : DotDims.WF S512x160 S2048x160 S512x2048 [1] [1] [0] [0] [] []
  dot_S512x2048_S2048x160_S512x160_1_0_0_1_n_n_wf : DotDims.WF S512x2048 S2048x160 S512x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x160.size a ≤ S16x2048x160.size a
  hwx0_0 : ∀ i : grid0.Coords, EltTy.bits .f32 = 32 ∨ (Rect.block (s := S16x2048x160) S1x512x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .f32 = 32 ∨ (Rect.block (s := S160x160) S160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x160.size a ≤ S160x160.size a
  hwx0_3 : ∀ i : grid0.Coords, EltTy.bits .f32 = 32 ∨ (Rect.block (s := S160x160) S160x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x160.size a ≤ S16x2048x160.size a
  hwx0_5 : ∀ i : grid0.Coords, EltTy.bits .f32 = 32 ∨ (Rect.block (s := S16x2048x160) S1x512x160.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x160.size a ≤ S16x2048x160.size a
  hwx0_6 : ∀ i : grid0.Coords, EltTy.bits .f32 = 32 ∨ (Rect.block (s := S16x2048x160) S1x512x160.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x160.size a ≤ S16x2048x160.size a
  hwx1_0 : ∀ i : grid1.Coords, EltTy.bits .f32 = 32 ∨ (Rect.block (s := S16x2048x160) S1x512x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x160.size a ≤ S160x160.size a
  hwx1_1 : ∀ i : grid1.Coords, EltTy.bits .f32 = 32 ∨ (Rect.block (s := S160x160) S160x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x160.size a ≤ S16x2048x160.size a
  hwx1_3 : ∀ i : grid1.Coords, EltTy.bits .f32 = 32 ∨ (Rect.block (s := S16x2048x160) S1x2048x160.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x160.size a ≤ S16x2048x160.size a
  hwx1_4 : ∀ i : grid1.Coords, EltTy.bits .f32 = 32 ∨ (Rect.block (s := S16x2048x160) S1x2048x160.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x160.size a ≤ S16x2048x160.size a
  hwx1_5 : ∀ i : grid1.Coords, EltTy.bits .f32 = 32 ∨ (Rect.block (s := S16x2048x160) S1x512x160.size (cc1_transform_5 i) (hinb1_5 i)).WholeWords (EltTy.packing .f32)

variable [Facts₀]

def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S512x160_S2048x160_S512x2048_1_1_0_0_n_n : DotDims S512x160 S2048x160 S512x2048 where
  lhsContracting := [1]
  rhsContracting := [1]
  lhsNonContracting := [0]
  rhsNonContracting := [0]
  lhsBatch := []
  rhsBatch := []
  wf := dot_S512x160_S2048x160_S512x2048_1_1_0_0_n_n_wf
def dot_S512x2048_S2048x160_S512x160_1_0_0_1_n_n : DotDims S512x2048 S2048x160 S512x160 where
  lhsContracting := [1]
  rhsContracting := [0]
  lhsNonContracting := [0]
  rhsNonContracting := [1]
  lhsBatch := []
  rhsBatch := []
  wf := dot_S512x2048_S2048x160_S512x160_1_0_0_1_n_n_wf

abbrev win0_0 : Pipeline.Window sig grid0 :=
  Pipeline.Window.ofSpec (Memref.whole main_arg1) S1x512x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S160x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512x160.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512x160.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S160x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x160.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x160.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048x160 : Shape := ⟨3, ![16, 2048, 160]⟩
abbrev S160x160 : Shape := ⟨2, ![160, 160]⟩
abbrev S160 : Shape := ⟨1, ![160]⟩
abbrev S1x1x160 : Shape := ⟨3, ![1, 1, 160]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S16x2048x160, .f32⟩
  | .hbm, ⟨9, _⟩ => ⟨S1x1x160, .f32⟩
  | .hbm, ⟨10, _⟩ => ⟨S16x2048x160, .f32⟩
  | .hbm, ⟨11, _⟩ => ⟨S16x2048x160, .f32⟩
  | .hbm, ⟨12, _⟩ => ⟨S16x2048x160, .f32⟩
  | .hbm, ⟨13, _⟩ => ⟨S1x1x160, .f32⟩
  | .hbm, ⟨14, _⟩ => ⟨S16x2048x160, .f32⟩
  | .hbm, ⟨15, _⟩ => ⟨S16x2048x160, .f32⟩
  | .hbm, ⟨16, _⟩ => ⟨S16x2048x160, .f32⟩
  | .hbm, ⟨17, _⟩ => ⟨S1x1x160, .f32⟩
  | .hbm, ⟨18, _⟩ => ⟨S16x2048x160, .f32⟩
  | .hbm, ⟨19, _⟩ => ⟨S16x2048x160, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x160, .f32⟩
  | .hbm, ⟨36, _⟩ => ⟨S16x2048x160, .f32⟩
  | _, _ => ⟨S16x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S16x2048x160_0_1_2 : S1x1x160.BroadcastsInDim S16x2048x160 (![0, 1, 2] : Fin 3 → Fin S16x2048x160.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x160_S160x160_S16x2048x160_2_0_01_1_n_n_wf : DotDims.WF S16x2048x160 S160x160 S16x2048x160 [2] [0] [0, 1] [1] [] []
  dot_S16x2048x160_S16x2048x160_S16x2048x2048_2_2_1_1_0_0_wf : DotDims.WF S16x2048x160 S16x2048x160 S16x2048x2048 [2] [2] [1] [1] [0] [0]
  dot_S16x2048x2048_S16x2048x160_S16x2048x160_2_1_1_2_0_0_wf : DotDims.WF S16x2048x2048 S16x2048x160 S16x2048x160 [2] [1] [1] [2] [0] [0]

variable [Facts₀]

def dot_S16x2048x160_S160x160_S16x2048x160_2_0_01_1_n_n : DotDims S16x2048x160 S160x160 S16x2048x160 where
  lhsContracting := [2]
  rhsContracting := [0]
  lhsNonContracting := [0, 1]
  rhsNonContracting := [1]
  lhsBatch := []
  rhsBatch := []
  wf := dot_S16x2048x160_S160x160_S16x2048x160_2_0_01_1_n_n_wf
def dot_S16x2048x160_S16x2048x160_S16x2048x2048_2_2_1_1_0_0 : DotDims S16x2048x160 S16x2048x160 S16x2048x2048 where
  lhsContracting := [2]
  rhsContracting := [2]
  lhsNonContracting := [1]
  rhsNonContracting := [1]
  lhsBatch := [0]
  rhsBatch := [0]
  wf := dot_S16x2048x160_S16x2048x160_S16x2048x2048_2_2_1_1_0_0_wf
def dot_S16x2048x2048_S16x2048x160_S16x2048x160_2_1_1_2_0_0 : DotDims S16x2048x2048 S16x2048x160 S16x2048x160 where
  lhsContracting := [2]
  rhsContracting := [1]
  lhsNonContracting := [1]
  rhsNonContracting := [2]
  lhsBatch := [0]
  rhsBatch := [0]
  wf := dot_S16x2048x2048_S16x2048x160_S16x2048x160_2_1_1_2_0_0_wf

class Facts : Prop extends Facts₀ where

variable [Facts]
-- ==== Proof.Spec.lean ====
/-
  Single-head cross-attention with a residual, as mathematics on the extended reals.

  One query row `q` (160 numbers) meets 2048 key rows and 2048 value rows. Its score against key `j` is the inner
  product `∑ e, q e * K j e`; the row's maximum `M` is taken from `-∞`; the weight of key `j` is `exp (score j - M)`;
  the denominator `L` is the sum of the weights. The result at lane `e` is the weighted sum of the values' lane `e`,
  normalised by `L`, plus the residual `x`. Two orders of the normalisation are written down:
    * `attnMulInv`:  `(∑ j, w j * V j e) * (1 / L) + x`      (normalise once, after the weighted sum);
    * `attnDivEach`: `(∑ j, (w j / L) * V j e) + x`          (normalise every weight first).
  On the extended reals the two differ in general (distributivity fails at the infinities), and agree when the query,
  the keys and the values are real numbers: then every score is real, the maximum over the nonempty key set is real,
  every weight is a positive real, and `L` is a positive real, so that both are the real `(∑ w v) / L + x`.

  A projected row is `∑ d, x d * W d e + β e`; over real inputs it is real.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- An extended real that is a real number. -/
def IsReal (x : EReal) : Prop := ∃ t : ℝ, x = (t : EReal)

/-! ## One row -/

/-- The bit pattern of `-∞`, which both maxima start from. -/
abbrev negInf : EReal := Ideal.ofBits .f32 0xFF800000#32
/-- The bit pattern of `1.0`. -/
abbrev one32 : EReal := Ideal.ofBits .f32 0x3F800000#32

/-- A row through a weight matrix, plus a bias. -/
def projRow (x : Fin 160 → EReal) (W : Fin 160 → Fin 160 → EReal) (β : Fin 160 → EReal) (e : Fin 160) : EReal :=
  (∑ d : Fin 160, x d * W d e) + β e

/-- The score of a query row against key `j`. -/
def score (q : Fin 160 → EReal) (K : Fin 2048 → Fin 160 → EReal) (j : Fin 2048) : EReal :=
  ∑ e : Fin 160, q e * K j e

/-- The largest score of the row, from `-∞`. -/
def rowMax (q : Fin 160 → EReal) (K : Fin 2048 → Fin 160 → EReal) : EReal :=
  (Finset.univ : Finset (Fin 2048)).fold max negInf (score q K)

/-- The unnormalised weight of key `j`. -/
def weight (q : Fin 160 → EReal) (K : Fin 2048 → Fin 160 → EReal) (j : Fin 2048) : EReal :=
  Ideal.exp (score q K j - rowMax q K)

/-- The sum of the weights. -/
def denom (q : Fin 160 → EReal) (K : Fin 2048 → Fin 160 → EReal) : EReal :=
  ∑ j : Fin 2048, weight q K j

/-- Normalise once, after the weighted sum of the values. -/
def attnMulInv (q : Fin 160 → EReal) (K V : Fin 2048 → Fin 160 → EReal) (x : EReal) (e : Fin 160) : EReal :=
  (∑ j : Fin 2048, weight q K j * V j e) * Ideal.div one32 (denom q K) + x

/-- Normalise every weight, then sum. -/
def attnDivEach (q : Fin 160 → EReal) (K V : Fin 2048 → Fin 160 → EReal) (x : EReal) (e : Fin 160) : EReal :=
  (∑ j : Fin 2048, Ideal.div (weight q K j) (denom q K) * V j e) + x

/-! ## Whole arrays -/

abbrev A3 : Type := (⟨3, ![16, 2048, 160]⟩ : Shape).Idx → EReal
abbrev A2 : Type := (⟨2, ![160, 160]⟩ : Shape).Idx → EReal

/-- Every row of every batch projected. -/
def projArr (X : A3) (W : A2) (β : Fin 160 → EReal) : A3 := fun i =>
  projRow (fun d => X (ix3 (i 0) (i 1) d)) (fun d e => W (ix2 d e)) β (i 2)

/-- Attention of the projected rows of `X` over the keys `K` and values `V` of the same batch, plus `X`:
    normalised once. -/
def attnArrMulInv (X : A3) (Wq : A2) (βq : Fin 160 → EReal) (K V : A3) : A3 := fun i =>
  attnMulInv (projRow (fun d => X (ix3 (i 0) (i 1) d)) (fun d e => Wq (ix2 d e)) βq)
    (fun j e => K (ix3 (i 0) j e)) (fun j e => V (ix3 (i 0) j e)) (X i) (i 2)

/-- The same with every weight normalised. -/
def attnArrDivEach (X : A3) (Wq : A2) (βq : Fin 160 → EReal) (K V : A3) : A3 := fun i =>
  attnDivEach (projRow (fun d => X (ix3 (i 0) (i 1) d)) (fun d e => Wq (ix2 d e)) βq)
    (fun j e => K (ix3 (i 0) j e)) (fun j e => V (ix3 (i 0) j e)) (X i) (i 2)

end Cert.Attn

end
-- ==== Proof.SpecLaws.lean ====
/-
  The two facts about the attention arithmetic that need real numbers.

  Road. A real extended real is the coercion of a real number, and coercions are closed under sums, products and
  finite sums. With a real query and real keys every score is a real number; the maximum of 2048 real numbers taken
  from `-∞` is one of them, so it is real; every weight is `exp` of a real, a positive real; the denominator is a
  finite nonempty sum of positive reals, so it is a positive real `L`. Division by `L` is then multiplication by the
  real `1 / L`, and both orders of normalisation are the coercion of the same real number
  `(∑ j, w j * v j) * (1 / L)`, to which the residual (real or not) is added last.
-/
import proofs.«116099_g83305185673742_cont_9to1c4b_147_3_alg».proof.Proof.Spec

noncomputable section

open scoped BigOperators

namespace Cert.Attn

open Idealize.ShloMosaic Idealize.ShloMosaic.ValueIdx

/-! ## Real extended reals are closed under the arithmetic -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (hf : ∀ i, IsReal (f i)) : IsReal (∑ i ∈ s, f i) := by
  choose g hg using hf
  refine ⟨∑ i ∈ s, g i, ?_⟩
  rw [← coe_sum]
  exact Finset.sum_congr rfl fun i _ => hg i

/-- A projected row of real rows is real. -/
theorem projRow_isReal (x : Fin 160 → EReal) (W : Fin 160 → Fin 160 → EReal) (β : Fin 160 → EReal)
    (hx : ∀ d, IsReal (x d)) (hW : ∀ d e, IsReal (W d e)) (hβ : ∀ e, IsReal (β e)) (e : Fin 160) :
    IsReal (projRow x W β e) := by
  unfold projRow
  exact (IsReal.sum _ _ fun d => (hx d).mul (hW d e)).add (hβ e)

/-! ## The two constants -/

theorem negInf_eq : negInf = ⊥ := by
  show Ideal.ofBits .f32 0xFF800000#32 = ⊥
  simp [Ideal.ofBits, Ideal.ieee]

theorem one32_eq : one32 = 1 := by
  show Ideal.ofBits .f32 0x3F800000#32 = 1
  simp [Ideal.ofBits, Ideal.ieee, -EReal.coe_mul]; norm_num

/-! ## Normalising once or every weight: the same real number -/

/-- With real weights `w`, real values `v` and a nonzero real denominator `L`, the weighted sum times `1 / L` is
    the sum of the weights divided by `L` times the values; the residual `x` is added last and never inspected. -/
theorem norm_law {ι : Type*} (s : Finset ι) (w v : ι → ℝ) {L : ℝ} (hL : L ≠ 0) (x : EReal) :
    (∑ j ∈ s, ((w j : ℝ) : EReal) * ((v j : ℝ) : EReal)) * Ideal.div 1 (L : EReal) + x
      = (∑ j ∈ s, Ideal.div ((w j : ℝ) : EReal) (L : EReal) * ((v j : ℝ) : EReal)) + x := by
  refine congrArg (· + x) ?_
  have hl : (∑ j ∈ s, ((w j : ℝ) : EReal) * ((v j : ℝ) : EReal)) = ((∑ j ∈ s, w j * v j : ℝ) : EReal) :=
    (Finset.sum_congr rfl fun j _ => (EReal.coe_mul _ _).symm).trans (coe_sum s _)
  have hr : (∑ j ∈ s, Ideal.div ((w j : ℝ) : EReal) (L : EReal) * ((v j : ℝ) : EReal))
      = ((∑ j ∈ s, w j * (1 / L) * v j : ℝ) : EReal) :=
    (Finset.sum_congr rfl fun j _ => by
      rw [Ideal.div_coe hL, ← EReal.coe_mul, ← EReal.coe_mul]).trans (coe_sum s _)
  rw [hl, hr, Ideal.div_coe hL, one_mul, ← EReal.coe_mul, Finset.sum_mul]
  exact congrArg Real.toEReal (Finset.sum_congr rfl fun j _ => by ring)

/-! ## One row over the reals -/

section Row

variable (q : Fin 160 → ℝ) (K V : Fin 2048 → Fin 160 → ℝ)

/-- The score of real rows is the real inner product. -/
theorem score_coe (j : Fin 2048) :
    score (fun e => (q e : EReal)) (fun j e => (K j e : EReal)) j = ((∑ e : Fin 160, q e * K j e : ℝ) : EReal) := by
  unfold score
  exact (Finset.sum_congr rfl fun e _ => (EReal.coe_mul _ _).symm).trans (coe_sum _ _)

/-- The maximum of 2048 real scores, taken from `-∞`, is real: it is above `-∞` because the first score is, and
    below `+∞` because every score is. -/
theorem rowMax_real :
    ∃ μ : ℝ, rowMax (fun e => (q e : EReal)) (fun j e => (K j e : EReal)) = (μ : EReal) := by
  have hs : score (fun e => (q e : EReal)) (fun j e => (K j e : EReal))
      = fun j => ((∑ e : Fin 160, q e * K j e : ℝ) : EReal) := funext (score_coe q K)
  unfold rowMax
  rw [hs, negInf_eq]
  have h1 : (⊥ : EReal) < (Finset.univ : Finset (Fin 2048)).fold max (⊥ : EReal)
      (fun j => ((∑ e : Fin 160, q e * K j e : ℝ) : EReal)) :=
    (Finset.lt_fold_max _).2 (Or.inr ⟨0, Finset.mem_univ _, EReal.bot_lt_coe _⟩)
  have h2 : (Finset.univ : Finset (Fin 2048)).fold max (⊥ : EReal)
      (fun j => ((∑ e : Fin 160, q e * K j e : ℝ) : EReal)) < ⊤ :=
    (Finset.fold_max_lt _).2 ⟨bot_lt_top, fun j _ => EReal.coe_lt_top _⟩
  exact ⟨_, (EReal.coe_toReal h2.ne h1.ne').symm⟩

/-- THE ROW LAW: over a real query, real keys and real values the two orders of normalisation agree, whatever the
    residual `x` is. -/
theorem row_law_coe (x : EReal) (e : Fin 160) :
    attnMulInv (fun e => (q e : EReal)) (fun j e => (K j e : EReal)) (fun j e => (V j e : EReal)) x e
      = attnDivEach (fun e => (q e : EReal)) (fun j e => (K j e : EReal)) (fun j e => (V j e : EReal)) x e := by
  obtain ⟨μ, hμ⟩ := rowMax_real q K
  -- every weight is the exponential of a real number
  have hw : weight (fun e => (q e : EReal)) (fun j e => (K j e : EReal))
      = fun j => ((Real.exp ((∑ e : Fin 160, q e * K j e) - μ) : ℝ) : EReal) := by
    funext j
    unfold weight
    rw [score_coe, hμ, ← EReal.coe_sub, Ideal.exp_coe]
  -- the denominator is a sum of positive reals
  have hL : denom (fun e => (q e : EReal)) (fun j e => (K j e : EReal))
      = ((∑ j : Fin 2048, Real.exp ((∑ e : Fin 160, q e * K j e) - μ) : ℝ) : EReal) := by
    unfold denom
    rw [hw]
    exact coe_sum _ _
  have hpos : (0 : ℝ) < ∑ j : Fin 2048, Real.exp ((∑ e : Fin 160, q e * K j e) - μ) :=
    Finset.sum_pos (fun j _ => Real.exp_pos _) Finset.univ_nonempty
  unfold attnMulInv attnDivEach
  rw [hL, hw, one32_eq]
  exact norm_law Finset.univ (fun j => Real.exp ((∑ e : Fin 160, q e * K j e) - μ)) (fun j => V j e) hpos.ne' x

end Row

/-- The row law for rows whose entries are real extended reals. -/
theorem row_law (q : Fin 160 → EReal) (K V : Fin 2048 → Fin 160 → EReal) (hq : ∀ e, IsReal (q e))
    (hK : ∀ j e, IsReal (K j e)) (hV : ∀ j e, IsReal (V j e)) (x : EReal) (e : Fin 160) :
    attnMulInv q K V x e = attnDivEach q K V x e := by
  choose q' hq' using hq
  choose K' hK' using hK
  choose V' hV' using hV
  obtain rfl : q = fun e => (q' e : EReal) := funext hq'
  obtain rfl : K = fun j e => (K' j e : EReal) := funext fun j => funext (hK' j)
  obtain rfl : V = fun j e => (V' j e : EReal) := funext fun j => funext (hV' j)
  exact row_law_coe q' K' V' x e

/-! ## Whole arrays -/

/-- A projected array of real arrays is real. -/
theorem projArr_isReal (X : A3) (W : A2) (β : Fin 160 → EReal) (hX : ∀ i, IsReal (X i)) (hW : ∀ i, IsReal (W i))
    (hβ : ∀ e, IsReal (β e)) (i : (⟨3, ![16, 2048, 160]⟩ : Shape).Idx) : IsReal (projArr X W β i) := by
  unfold projArr
  exact projRow_isReal _ _ _ (fun d => hX _) (fun d e => hW _) hβ _

/-- Over real queries, keys and values the two orders of normalisation agree. -/
theorem attnArr_eq (X : A3) (Wq : A2) (βq : Fin 160 → EReal) (K V : A3) (hX : ∀ i, IsReal (X i))
    (hWq : ∀ i, IsReal (Wq i)) (hβq : ∀ e, IsReal (βq e)) (hK : ∀ i, IsReal (K i)) (hV : ∀ i, IsReal (V i)) :
    attnArrMulInv X Wq βq K V = attnArrDivEach X Wq βq K V := by
  funext i
  unfold attnArrMulInv attnArrDivEach
  exact row_law _ _ _ (projRow_isReal _ _ _ (fun d => hX _) (fun d e => hWq _) hβq)
    (fun j e => hK _) (fun j e => hV _) _ _

end Cert.Attn

end
-- ==== Proof.Finite.lean ====
/-
  Under the precondition every entry of every input array is a real number.
-/
import proofs.«116099_g83305185673742_cont_9to1c4b_147_3_alg».proof.Pre_finite_inputs
import proofs.«116099_g83305185673742_cont_9to1c4b_147_3_alg».proof.Proof.Spec
import Idealize.ShloMosaic.Lib.ReduceAll

noncomputable section

namespace Cert.Attn

open Idealize.ShloMosaic Idealize.ShloMosaic.ValueIdx Cert.Pre_finite_inputs

/-- The scalar shape has one index. -/
instance : Subsingleton S_.Idx := ⟨fun a b => funext fun d => d.elim0⟩

/-- The pattern of `+∞` is the top of the extended reals. -/
theorem ofBits_posInf : Ideal.ofBits .f32 0x7F800000#32 = (⊤ : EReal) := by simp [Ideal.ofBits, Ideal.ieee]

/-- An ordered "less than" that came out true is the strict order. -/
theorem lt_of_cmp_olt (x y : EReal) (h : Ideal.cmp .olt x y = 1#1) : x < y := by
  by_contra hn
  simp [Ideal.cmp, hn] at h

/-- An extended real whose absolute value `max x (-x)` is below `+∞` is a real number. -/
theorem isReal_of_abs_lt_top (x : EReal) (h : max x (-x) < ⊤) : IsReal x := by
  induction x using EReal.rec with
  | bot => simp at h
  | top => simp at h
  | coe r => exact ⟨r, rfl⟩

/-- The conjunction over all entries of `|a| < +∞`, a reduction by `and` of the entrywise comparison with `+∞`:
    when it is 1, every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) :
    ∀ i, IsReal (a i) := by
  intro i
  have h1 := Host.reduce_andi_all _ _ hr hu ix0 e i
  have h2 : Ideal.cmp .olt (max (a i) (-(a i))) (Ideal.ofBits .f32 0x7F800000#32) = 1#1 := h1
  have h3 := lt_of_cmp_olt _ _ h2
  rw [ofBits_posInf] at h3
  exact isReal_of_abs_lt_top _ h3

/-- The printed predicate, all ones, makes each of the eight arrays real entry by entry. -/
theorem real_of_finite [Cert.Pre_finite_inputs.Facts]
    (a0 a1 : FVec Ideal S16x2048x160 .f32) (a2 : FVec Ideal S160x160 .f32) (a3 : FVec Ideal S160 .f32)
    (a4 : FVec Ideal S160x160 .f32) (a5 : FVec Ideal S160 .f32) (a6 : FVec Ideal S160x160 .f32) (a7 : FVec Ideal S160 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i)) := by
  have h0 := congrFun h ix0
  dsimp only [Cert.Pre_finite_inputs.fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Attn

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KV.lean ====
/-
  The first region: the key and value projections. Each grid point (b, s) takes 512 rows of batch b of y and writes
  the same rows of k and of v; over the whole grid the two result arrays are the projections of y.

  The body's result at an element is a row of the loaded block through the weight matrix plus the bias; the block
  of y a point loads sits where the block it stores sits, the weights and the bias are loaded whole; so what a point
  writes back is its block of the projected array, and the 16 × 4 blocks cover the array.
-/
import proofs.«116099_g83305185673742_cont_9to1c4b_147_3_alg».proof.Proof.Gen.KernelIdeal.Frame
import proofs.«116099_g83305185673742_cont_9to1c4b_147_3_alg».proof.Proof.Spec
import proofs.«116099_g83305185673742_cont_9to1c4b_147_3_alg».proof.Proof.LibRowCasts
import Idealize.ShloMosaic.Lib.ValueLayout
import Idealize.ShloMosaic.Lib.Pipeline.Value
import Idealize.ShloMosaic.PureOps.Ideal.Laws

set_option maxRecDepth 16384

noncomputable section

namespace Cert.KernelIdeal.KV

open Cert.KernelIdeal Cert.KernelIdeal.Gen Cert.Attn
open Idealize.ShloMosaic Idealize.ShloMosaic.TcCoe Idealize.ShloMosaic.ValueIdx Idealize.SL.Sem

/-! ## The product of a row block with a weight matrix, read at an element -/

/-- The left operand keeps the result's row. -/
theorem lhs_row (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
/-- The left operand's lane is the summation index. -/
theorem lhs_lane (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q
/-- The right operand's row is the summation index. -/
theorem rhs_row (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q
/-- The right operand keeps the result's lane. -/
theorem rhs_lane (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- A [512,160] block times a [160,160] matrix into the zero splat, at row `r` and lane `e`: the inner product of
    the block's row with the matrix's column. -/
theorem matmul_elt (x : FVec Ideal S512x160 .f32) (w : FVec Ideal S160x160 .f32) (r : Fin 512) (e : Fin 160) :
    FloatOps.matmul dot_S512x160_S160x160_S512x160_1_0_0_1_n_n none x w (constant S512x160 .f32 0x00000000#32) (ix2 r e)
      = ∑ d : Fin 160, x (ix2 r d) * w (ix2 d e) := by
  rw [Ideal.matmul_constant_zero_apply, ← Equiv.sum_comp (ValueIdx.contrEquiv1 dot_S512x160_S160x160_S512x160_1_0_0_1_n_n 160 rfl rfl).symm]
  refine Finset.sum_congr rfl fun k _ => ?_
  have hk := ValueIdx.contrEquiv1_symm_val dot_S512x160_S160x160_S512x160_1_0_0_1_n_n 160 rfl rfl k
  have el : dot_S512x160_S160x160_S512x160_1_0_0_1_n_n.lhsIdx (ix2 r e) ((ValueIdx.contrEquiv1 dot_S512x160_S160x160_S512x160_1_0_0_1_n_n 160 rfl rfl).symm k) = ix2 r k := funext fun a => Fin.ext (by
    match a with
    | ⟨0, _⟩ => exact lhs_row _ _
    | ⟨1, _⟩ => exact (lhs_lane _ _).trans hk)
  have er : dot_S512x160_S160x160_S512x160_1_0_0_1_n_n.rhsIdx (ix2 r e) ((ValueIdx.contrEquiv1 dot_S512x160_S160x160_S512x160_1_0_0_1_n_n 160 rfl rfl).symm k) = ix2 k e := funext fun a => Fin.ext (by
    match a with
    | ⟨0, _⟩ => exact (rhs_row _ _).trans hk
    | ⟨1, _⟩ => exact rhs_lane _ _)
  rw [el, er]

/-- The keys' payload at an element: the block's row through the weights, plus the bias. -/
theorem keys_pay_elt (v0 : Vec Ideal S1x512x160 .f32) (v2 : Vec Ideal S160x160 .f32) (v4 : Vec Ideal S1x160 .f32)
    (u : Fin 1) (r : Fin 512) (e : Fin 160) :
    k0_pay2 (F := Ideal) v0 v2 v4 (ix3 u r e)
      = projRow (fun d => v0 (ix3 (0 : Fin 1) r d)) (fun d e' => v2 (ix2 d e')) (fun e' => v4 (ix2 (0 : Fin 1) e')) e := by
  unfold k0_pay2 k0_pay1 projRow
  refine (shapeCast_ab_1ab_apply _ shapeCasts_S512x160_S1x512x160 u r e).trans ?_
  refine (addf_apply _ _ _).trans ?_
  refine congrArg₂ (· + ·) ?_ ?_
  · refine (matmul_elt _ _ r e).trans ?_
    refine Finset.sum_congr rfl fun d _ => ?_
    exact congrArg (· * _) (shapeCast_1ab_ab_apply v0 shapeCasts_S1x512x160_S512x160 r d)
  · refine (broadcastTo_1b_ab_apply _ broadcasts_S1x160_S512x160 r e).trans ?_
    rw [shapeCast_self]

/-- The values' payload at an element: the same with the other weights and bias. -/
theorem values_pay_elt (v0 : Vec Ideal S1x512x160 .f32) (v2 : Vec Ideal S160x160 .f32) (v4 : Vec Ideal S1x160 .f32)
    (u : Fin 1) (r : Fin 512) (e : Fin 160) :
    k0_pay3 (F := Ideal) v0 v2 v4 (ix3 u r e)
      = projRow (fun d => v0 (ix3 (0 : Fin 1) r d)) (fun d e' => v2 (ix2 d e')) (fun e' => v4 (ix2 (0 : Fin 1) e')) e := by
  unfold k0_pay3 k0_pay1 projRow
  refine (shapeCast_ab_1ab_apply _ shapeCasts_S512x160_S1x512x160 u r e).trans ?_
  refine (addf_apply _ _ _).trans ?_
  refine congrArg₂ (· + ·) ?_ ?_
  · refine (matmul_elt _ _ r e).trans ?_
    refine Finset.sum_congr rfl fun d _ => ?_
    exact congrArg (· * _) (shapeCast_1ab_ab_apply v0 shapeCasts_S1x512x160_S512x160 r d)
  · refine (broadcastTo_1b_ab_apply _ broadcasts_S1x160_S512x160 r e).trans ?_
    rw [shapeCast_self]

/-! ## Shared by both windows -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- A projected row depends on its row, weights, bias and lane only through their values. -/
theorem projRow_congr {x x' : Fin 160 → EReal} {W W' : Fin 160 → Fin 160 → EReal} {β β' : Fin 160 → EReal} {e e' : Fin 160}
    (hx : ∀ d, x d = x' d) (hW : ∀ d l, W d l = W' d l) (hβ : ∀ l, β l = β' l) (he : e = e') :
    projRow x W β e = projRow x' W' β' e' := by
  subst he
  unfold projRow
  rw [hβ]
  exact congrArg (· + _) (Finset.sum_congr rfl fun d _ => by rw [hx, hW])

variable (V : (c : Dev nD) → (b : Ref sig .tc) → Buf (Elt Ideal) ((c : Thread nD τ).loc b))

/-! ## The keys: window 5 -/

/-- The index maps over the grid: the block of y moves with the result's block, the weights and the bias stay at
    block zero, and the result's block indices stay in their ranges. -/
theorem keys_idx_facts : ∀ t : Fin cfg0.N,
    win0_0.index t (0 : Fin 3) = win0_5.index t (0 : Fin 3)
    ∧ win0_0.index t (1 : Fin 3) = win0_5.index t (1 : Fin 3)
    ∧ win0_0.index t (2 : Fin 3) = win0_5.index t (2 : Fin 3)
    ∧ win0_1.index t (0 : Fin 2) = 0 ∧ win0_1.index t (1 : Fin 2) = 0
    ∧ win0_2.index t (0 : Fin 2) = 0 ∧ win0_2.index t (1 : Fin 2) = 0
    ∧ win0_5.index t (0 : Fin 3) ≤ 15 ∧ win0_5.index t (1 : Fin 3) ≤ 3 ∧ win0_5.index t (2 : Fin 3) ≤ 0 :=
  (by decide +kernel : ∀ t : Fin grid0.N, _)

/-- Every block index of the result is some grid point's. -/
theorem keys_idx_onto : ∀ (q0 : Fin 16) (q1 : Fin 4) (q2 : Fin 1), ∃ t : Fin cfg0.N, win0_5.index t = ![q0.val, q1.val, q2.val] :=
  (by decide +kernel : ∀ (q0 : Fin 16) (q1 : Fin 4) (q2 : Fin 1), ∃ t : Fin grid0.N, win0_5.index t = ![q0.val, q1.val, q2.val])

/-- The projected row of the blocks at point `t`, at row `r` and lane `e`, is the projected array at the index `i`
    that the result's block puts `(u, r, e)` at. -/
theorem keys_block_elt (c : Dev nD) (t : Fin cfg0.N) (u : Fin 1) (r : Fin 512) (e : Fin 160) (i : S16x2048x160.Idx)
    (h0 : (i 0).val = win0_5.index t (0 : Fin 3) * 1 + 1 * u.val)
    (h1 : (i 1).val = win0_5.index t (1 : Fin 3) * 512 + 1 * r.val)
    (h2 : (i 2).val = win0_5.index t (2 : Fin 3) * 160 + 1 * e.val) :
    projRow (fun d => iblk0 V c 0 t (ix3 (0 : Fin 1) r d)) (fun d e' => iblk0 V c 1 t (ix2 d e'))
        (fun e' => iblk0 V c 2 t (ix2 (0 : Fin 1) e')) e
      = projArr (V c main_arg1) (V c main_arg4) (fun e => V c main_v1 (ix2 (0 : Fin 1) e)) i := by
  obtain ⟨e0, e1, e2, e3, e4, e5, e6, b0, b1, b2⟩ := keys_idx_facts t
  have hu : u.val = 0 := by omega
  unfold projArr
  refine projRow_congr (fun d => ?_) (fun d e' => ?_) (fun e' => ?_) (Fin.ext (by omega))
  · show V c main_arg1 (((cfg0.win 0).blk t).view.emb (ix3 (0 : Fin 1) r d)) = V c main_arg1 (ix3 (i 0) (i 1) d)
    refine congrArg _ (funext fun a => Fin.ext ?_)
    match a with
    | ⟨0, _⟩ => show win0_0.index t (0 : Fin 3) * 1 + 1 * 0 = (i 0).val; omega
    | ⟨1, _⟩ => show win0_0.index t (1 : Fin 3) * 512 + 1 * r.val = (i 1).val; omega
    | ⟨2, _⟩ => show win0_0.index t (2 : Fin 3) * 160 + 1 * d.val = d.val; omega
  · show V c main_arg4 (((cfg0.win 1).blk t).view.emb (ix2 d e')) = V c main_arg4 (ix2 d e')
    refine congrArg _ (funext fun a => Fin.ext ?_)
    match a with
    | ⟨0, _⟩ => show win0_1.index t (0 : Fin 2) * 160 + 1 * d.val = d.val; omega
    | ⟨1, _⟩ => show win0_1.index t (1 : Fin 2) * 160 + 1 * e'.val = e'.val; omega
  · show V c main_v1 (((cfg0.win 2).blk t).view.emb (ix2 (0 : Fin 1) e')) = V c main_v1 (ix2 (0 : Fin 1) e')
    refine congrArg _ (funext fun a => Fin.ext ?_)
    match a with
    | ⟨0, _⟩ => show win0_2.index t (0 : Fin 2) * 1 + 1 * 0 = 0; omega
    | ⟨1, _⟩ => show win0_2.index t (1 : Fin 2) * 160 + 1 * e'.val = e'.val; omega

/-- What point `t` writes back is block `t` of the projected array. -/
theorem keys_flushed_eq (c : Dev nD) (t : Fin cfg0.N) :
    (dat0 V c).flushed 5 t = ((cfg0.win 5).blk t).view.read (Elt Ideal)
      (projArr (V c main_arg1) (V c main_arg4) (fun e => V c main_v1 (ix2 (0 : Fin 1) e))) := by
  show (cfg0.win 5).cut (grid0.coords t) ((dat0 V c).after 5 t) = _
  rw [after0_5]
  unfold out0_5
  rw [View.canon_unit_zero zeros3]
  simp only [View.ld_unit_zero (S := S1x512x160) zeros3, View.ld_unit_zero (S := S160x160) zeros2,
    View.ld_unit_zero (S := S1x160) zeros2]
  refine funext fun (j : S1x512x160.Idx) => ?_
  obtain ⟨u, r, e, rfl⟩ : ∃ (u : Fin 1) (r : Fin 512) (e : Fin 160), j = ix3 u r e := ⟨j 0, j 1, j 2, eq_ix3 j⟩
  show k0_pay2 (iblk0 V c 0 t) (iblk0 V c 1 t) (iblk0 V c 2 t) (ix3 u r e)
    = projArr (V c main_arg1) (V c main_arg4) (fun e => V c main_v1 (ix2 (0 : Fin 1) e)) (((cfg0.win 5).blk t).view.emb (ix3 u r e))
  exact (keys_pay_elt _ _ _ u r e).trans (keys_block_elt V c t u r e _ rfl rfl rfl)

/-- An index of the result array is in point `t`'s block iff each coordinate is in the block's range. -/
theorem keys_mem_blk (t : Fin cfg0.N) (i : S16x2048x160.Idx) :
    i ∈ ((cfg0.win 5).blk t).view.set ↔ ∀ a : Fin 3, win0_5.index t a * S1x512x160.size a ≤ (i a).val ∧ (i a).val < win0_5.index t a * S1x512x160.size a + S1x512x160.size a := by
  show i ∈ ((View.whole main_v3_0).slice (win0_5.rect t)).set ↔ _
  rw [View.set_slice_whole, Rect.mem_set_unit]
  exact Iff.rfl

/-- Row `r` of batch `b` is written by the point whose block index is `(b, r / 512, 0)`. -/
theorem keys_cover (i : S16x2048x160.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 160 := (i 2).isLt
  obtain ⟨t, ht⟩ := keys_idx_onto ⟨(i 0).val, hi0⟩ ⟨(i 1).val / 512, by omega⟩ ⟨0, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [keys_mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 160 ≤ (i 2).val ∧ (i 2).val < win0_5.index t (2 : Fin 3) * 160 + 160; omega

/-! ## The values: window 6 -/

/-- The index maps over the grid: the block of y moves with the result's block, the weights and the bias stay at
    block zero, and the result's block indices stay in their ranges. -/
theorem values_idx_facts : ∀ t : Fin cfg0.N,
    win0_0.index t (0 : Fin 3) = win0_6.index t (0 : Fin 3)
    ∧ win0_0.index t (1 : Fin 3) = win0_6.index t (1 : Fin 3)
    ∧ win0_0.index t (2 : Fin 3) = win0_6.index t (2 : Fin 3)
    ∧ win0_3.index t (0 : Fin 2) = 0 ∧ win0_3.index t (1 : Fin 2) = 0
    ∧ win0_4.index t (0 : Fin 2) = 0 ∧ win0_4.index t (1 : Fin 2) = 0
    ∧ win0_6.index t (0 : Fin 3) ≤ 15 ∧ win0_6.index t (1 : Fin 3) ≤ 3 ∧ win0_6.index t (2 : Fin 3) ≤ 0 :=
  (by decide +kernel : ∀ t : Fin grid0.N, _)

/-- Every block index of the result is some grid point's. -/
theorem values_idx_onto : ∀ (q0 : Fin 16) (q1 : Fin 4) (q2 : Fin 1), ∃ t : Fin cfg0.N, win0_6.index t = ![q0.val, q1.val, q2.val] :=
  (by decide +kernel : ∀ (q0 : Fin 16) (q1 : Fin 4) (q2 : Fin 1), ∃ t : Fin grid0.N, win0_6.index t = ![q0.val, q1.val, q2.val])

/-- The projected row of the blocks at point `t`, at row `r` and lane `e`, is the projected array at the index `i`
    that the result's block puts `(u, r, e)` at. -/
theorem values_block_elt (c : Dev nD) (t : Fin cfg0.N) (u : Fin 1) (r : Fin 512) (e : Fin 160) (i : S16x2048x160.Idx)
    (h0 : (i 0).val = win0_6.index t (0 : Fin 3) * 1 + 1 * u.val)
    (h1 : (i 1).val = win0_6.index t (1 : Fin 3) * 512 + 1 * r.val)
    (h2 : (i 2).val = win0_6.index t (2 : Fin 3) * 160 + 1 * e.val) :
    projRow (fun d => iblk0 V c 0 t (ix3 (0 : Fin 1) r d)) (fun d e' => iblk0 V c 3 t (ix2 d e'))
        (fun e' => iblk0 V c 4 t (ix2 (0 : Fin 1) e')) e
      = projArr (V c main_arg1) (V c main_arg6) (fun e => V c main_v2 (ix2 (0 : Fin 1) e)) i := by
  obtain ⟨e0, e1, e2, e3, e4, e5, e6, b0, b1, b2⟩ := values_idx_facts t
  have hu : u.val = 0 := by omega
  unfold projArr
  refine projRow_congr (fun d => ?_) (fun d e' => ?_) (fun e' => ?_) (Fin.ext (by omega))
  · show V c main_arg1 (((cfg0.win 0).blk t).view.emb (ix3 (0 : Fin 1) r d)) = V c main_arg1 (ix3 (i 0) (i 1) d)
    refine congrArg _ (funext fun a => Fin.ext ?_)
    match a with
    | ⟨0, _⟩ => show win0_0.index t (0 : Fin 3) * 1 + 1 * 0 = (i 0).val; omega
    | ⟨1, _⟩ => show win0_0.index t (1 : Fin 3) * 512 + 1 * r.val = (i 1).val; omega
    | ⟨2, _⟩ => show win0_0.index t (2 : Fin 3) * 160 + 1 * d.val = d.val; omega
  · show V c main_arg6 (((cfg0.win 3).blk t).view.emb (ix2 d e')) = V c main_arg6 (ix2 d e')
    refine congrArg _ (funext fun a => Fin.ext ?_)
    match a with
    | ⟨0, _⟩ => show win0_3.index t (0 : Fin 2) * 160 + 1 * d.val = d.val; omega
    | ⟨1, _⟩ => show win0_3.index t (1 : Fin 2) * 160 + 1 * e'.val = e'.val; omega
  · show V c main_v2 (((cfg0.win 4).blk t).view.emb (ix2 (0 : Fin 1) e')) = V c main_v2 (ix2 (0 : Fin 1) e')
    refine congrArg _ (funext fun a => Fin.ext ?_)
    match a with
    | ⟨0, _⟩ => show win0_4.index t (0 : Fin 2) * 1 + 1 * 0 = 0; omega
    | ⟨1, _⟩ => show win0_4.index t (1 : Fin 2) * 160 + 1 * e'.val = e'.val; omega

/-- What point `t` writes back is block `t` of the projected array. -/
theorem values_flushed_eq (c : Dev nD) (t : Fin cfg0.N) :
    (dat0 V c).flushed 6 t = ((cfg0.win 6).blk t).view.read (Elt Ideal)
      (projArr (V c main_arg1) (V c main_arg6) (fun e => V c main_v2 (ix2 (0 : Fin 1) e))) := by
  show (cfg0.win 6).cut (grid0.coords t) ((dat0 V c).after 6 t) = _
  rw [after0_6]
  unfold out0_6
  rw [View.canon_unit_zero zeros3]
  simp only [View.ld_unit_zero (S := S1x512x160) zeros3, View.ld_unit_zero (S := S160x160) zeros2,
    View.ld_unit_zero (S := S1x160) zeros2]
  refine funext fun (j : S1x512x160.Idx) => ?_
  obtain ⟨u, r, e, rfl⟩ : ∃ (u : Fin 1) (r : Fin 512) (e : Fin 160), j = ix3 u r e := ⟨j 0, j 1, j 2, eq_ix3 j⟩
  show k0_pay3 (iblk0 V c 0 t) (iblk0 V c 3 t) (iblk0 V c 4 t) (ix3 u r e)
    = projArr (V c main_arg1) (V c main_arg6) (fun e => V c main_v2 (ix2 (0 : Fin 1) e)) (((cfg0.win 6).blk t).view.emb (ix3 u r e))
  exact (values_pay_elt _ _ _ u r e).trans (values_block_elt V c t u r e _ rfl rfl rfl)

/-- An index of the result array is in point `t`'s block iff each coordinate is in the block's range. -/
theorem values_mem_blk (t : Fin cfg0.N) (i : S16x2048x160.Idx) :
    i ∈ ((cfg0.win 6).blk t).view.set ↔ ∀ a : Fin 3, win0_6.index t a * S1x512x160.size a ≤ (i a).val ∧ (i a).val < win0_6.index t a * S1x512x160.size a + S1x512x160.size a := by
  show i ∈ ((View.whole main_v3_1).slice (win0_6.rect t)).set ↔ _
  rw [View.set_slice_whole, Rect.mem_set_unit]
  exact Iff.rfl

/-- Row `r` of batch `b` is written by the point whose block index is `(b, r / 512, 0)`. -/
theorem values_cover (i : S16x2048x160.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 160 := (i 2).isLt
  obtain ⟨t, ht⟩ := values_idx_onto ⟨(i 0).val, hi0⟩ ⟨(i 1).val / 512, by omega⟩ ⟨0, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [values_mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 160 ≤ (i 2).val ∧ (i 2).val < win0_6.index t (2 : Fin 3) * 160 + 160; omega

/-! ## The two result arrays -/

/-- The keys: after the region the first result array is y through Wk plus bk. -/
theorem keys_arr (c : Dev nD) :
    (dat0 V c).arrAt 5 cfg0.N
      = projArr (V c main_arg1) (V c main_arg4) (fun e => V c main_v1 (ix2 (0 : Fin 1) e)) :=
  (dat0 V c).arrAt_eq_of_cover 5 _ (fun t _ => keys_flushed_eq V c t) keys_cover

/-- The values: the second result array is y through Wv plus bv. -/
theorem values_arr (c : Dev nD) :
    (dat0 V c).arrAt 6 cfg0.N
      = projArr (V c main_arg1) (V c main_arg6) (fun e => V c main_v2 (ix2 (0 : Fin 1) e)) :=
  (dat0 V c).arrAt_eq_of_cover 6 _ (fun t _ => values_flushed_eq V c t) values_cover

end Cert.KernelIdeal.KV

end
-- ==== Proof.AttnPayload.lean ====
/-
  The second region's body at one element: row r of the 512-row block of x, projected, scored against all 2048 keys of
  the batch, softmaxed with the normalisation after the weighted sum of the values, plus the residual.
-/
import proofs.«116099_g83305185673742_cont_9to1c4b_147_3_alg».proof.Proof.Gen.KernelIdeal.Skeleton
import proofs.«116099_g83305185673742_cont_9to1c4b_147_3_alg».proof.Proof.Spec
import proofs.«116099_g83305185673742_cont_9to1c4b_147_3_alg».proof.Proof.LibRowCasts
import Idealize.ShloMosaic.Lib.ValueLayout
import Idealize.ShloMosaic.Lib.Pipeline.Value
import Idealize.ShloMosaic.PureOps.Ideal.Laws

noncomputable section

namespace Cert.KernelIdeal.AttnPayload

open Cert.KernelIdeal Cert.KernelIdeal.Gen Cert.Attn
open Idealize.ShloMosaic Idealize.ShloMosaic.ValueIdx
open scoped BigOperators

/-! ## The body's named intermediates, each as a function of the ones before it -/

/-- The block of x as a matrix. -/
def xMat (x0 : FVec Ideal S1x512x160 .f32) : FVec Ideal S512x160 .f32 :=
  shapeCast S512x160 x0 shapeCasts_S1x512x160_S512x160

/-- The projected rows: the block times the weight matrix, plus the bias row. -/
def qMat (x1 : FVec Ideal S512x160 .f32) (x2 : FVec Ideal S160x160 .f32) (x4 : FVec Ideal S1x160 .f32) :
    FVec Ideal S512x160 .f32 :=
  addf (matmul dot_S512x160_S160x160_S512x160_1_0_0_1_n_n none x1 x2 (constant S512x160 .f32 0x00000000#32))
    (broadcastTo S512x160 (shapeCast S1x160 x4 shapeCasts_S1x160_S1x160) broadcasts_S1x160_S512x160)

/-- A batch's 2048 rows as a matrix. -/
def rowsMat (x8 : FVec Ideal S1x2048x160 .f32) : FVec Ideal S2048x160 .f32 :=
  shapeCast S2048x160 x8 shapeCasts_S1x2048x160_S2048x160

/-- The scores: every projected row against every key row. -/
def sMat (q : FVec Ideal S512x160 .f32) (k : FVec Ideal S2048x160 .f32) : FVec Ideal S512x2048 .f32 :=
  matmul dot_S512x160_S2048x160_S512x2048_1_1_0_0_n_n none q k (constant S512x2048 .f32 0x00000000#32)

/-- The row maxima. -/
def mVec (s : FVec Ideal S512x2048 .f32) : FVec Ideal S512 .f32 :=
  multiReduction .maximumf [1] S512 s 0xFF800000#32 reduces_S512x2048_S512 (.inl rfl) rfl

/-- The weights: the exponential of each score less its row's maximum. -/
def wMat (s : FVec Ideal S512x2048 .f32) (m : FVec Ideal S512 .f32) : FVec Ideal S512x2048 .f32 :=
  exp (subf s (broadcastTo S512x2048 (shapeCast S512x1 m shapeCasts_S512_S512x1) broadcasts_S512x1_S512x2048))

/-- The row sums of the weights. -/
def lVec (w : FVec Ideal S512x2048 .f32) : FVec Ideal S512 .f32 :=
  multiReduction .add [1] S512 w 0x00000000#32 reduces_S512x2048_S512 (.inl rfl) rfl

/-- The weighted sums of the value rows. -/
def oMat (w : FVec Ideal S512x2048 .f32) (v : FVec Ideal S2048x160 .f32) : FVec Ideal S512x160 .f32 :=
  matmul dot_S512x2048_S2048x160_S512x160_1_0_0_1_n_n none w v (constant S512x160 .f32 0x00000000#32)

/-- The stored block: the weighted sums times the reciprocal of the row sums, plus the residual. -/
def outBlk (o : FVec Ideal S512x160 .f32) (l : FVec Ideal S512 .f32) (x1 : FVec Ideal S512x160 .f32) :
    FVec Ideal S1x512x160 .f32 :=
  shapeCast S1x512x160
    (addf
      (mulf o
        (broadcastTo S512x160
          (divf (broadcast S512x1 (Scalar.ofBits (F := Ideal) .f32 0x3F800000#32)) (shapeCast S512x1 l shapeCasts_S512_S512x1))
          broadcasts_S512x1_S512x160))
      x1)
    shapeCasts_S512x160_S1x512x160

/-- The body is the composition of these. -/
theorem pay_eq (x0 : Vec Ideal S1x512x160 .f32) (x2 : Vec Ideal S160x160 .f32) (x4 : Vec Ideal S1x160 .f32)
    (x8 x18 : Vec Ideal S1x2048x160 .f32) :
    k1_pay1 (F := Ideal) x0 x2 x4 x8 x18
      = outBlk
          (oMat (wMat (sMat (qMat (xMat x0) x2 x4) (rowsMat x8)) (mVec (sMat (qMat (xMat x0) x2 x4) (rowsMat x8))))
            (rowsMat x18))
          (lVec (wMat (sMat (qMat (xMat x0) x2 x4) (rowsMat x8)) (mVec (sMat (qMat (xMat x0) x2 x4) (rowsMat x8)))))
          (xMat x0) := rfl

/-! ## The three matrix products read at an element -/

-- the projection: [512,160] times [160,160], contracting the lanes of the left with the rows of the right
theorem projL_0 (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
theorem projL_1 (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q
theorem projR_0 (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q
theorem projR_1 (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- The projection's product at (r, e): the row r of the left against the column e of the right. -/
theorem proj_apply (x1 : FVec Ideal S512x160 .f32) (x2 : FVec Ideal S160x160 .f32) (r : Fin 512) (e : Fin 160) :
    matmul dot_S512x160_S160x160_S512x160_1_0_0_1_n_n none x1 x2 (constant S512x160 .f32 0x00000000#32) (ix2 r e)
      = ∑ d : Fin 160, x1 (ix2 r d) * x2 (ix2 d e) := by
  simp only [matmul]
  rw [Ideal.matmul_constant_zero_apply, ← Equiv.sum_comp (ValueIdx.contrEquiv1 dot_S512x160_S160x160_S512x160_1_0_0_1_n_n 160 rfl rfl).symm]
  refine Finset.sum_congr rfl fun k _ => ?_
  have hk := ValueIdx.contrEquiv1_symm_val dot_S512x160_S160x160_S512x160_1_0_0_1_n_n 160 rfl rfl k
  have el : dot_S512x160_S160x160_S512x160_1_0_0_1_n_n.lhsIdx (ix2 r e) ((ValueIdx.contrEquiv1 dot_S512x160_S160x160_S512x160_1_0_0_1_n_n 160 rfl rfl).symm k) = ix2 r k := funext fun a => Fin.ext (by
    match a with
    | ⟨0, _⟩ => exact projL_0 _ _
    | ⟨1, _⟩ => exact (projL_1 _ _).trans hk)
  have er : dot_S512x160_S160x160_S512x160_1_0_0_1_n_n.rhsIdx (ix2 r e) ((ValueIdx.contrEquiv1 dot_S512x160_S160x160_S512x160_1_0_0_1_n_n 160 rfl rfl).symm k) = ix2 k e := funext fun a => Fin.ext (by
    match a with
    | ⟨0, _⟩ => exact (projR_0 _ _).trans hk
    | ⟨1, _⟩ => exact projR_1 _ _)
  rw [el, er]

-- the scores: [512,160] against [2048,160], contracting the lanes of both
theorem scoreL_0 (i : S512x2048.Idx) (q : dot_S512x160_S2048x160_S512x2048_1_1_0_0_n_n.contr.Idx) :
    (dot_S512x160_S2048x160_S512x2048_1_1_0_0_n_n.lhsIdx i q 0).val = (i 0).val := by
  unfold DotDims.lhsIdx
  rw [dif_neg (show ¬(0 : Fin S512x160.rank) ∈ dot_S512x160_S2048x160_S512x2048_1_1_0_0_n_n.lhsBatch by decide), dif_pos (show (0 : Fin S512x160.rank) ∈ dot_S512x160_S2048x160_S512x2048_1_1_0_0_n_n.lhsNonContracting by decide)]
  rfl
theorem scoreL_1 (i : S512x2048.Idx) (q : dot_S512x160_S2048x160_S512x2048_1_1_0_0_n_n.contr.Idx) :
    (dot_S512x160_S2048x160_S512x2048_1_1_0_0_n_n.lhsIdx i q 1).val = (q ⟨0, by decide⟩).val :=
  dot_S512x160_S2048x160_S512x2048_1_1_0_0_n_n.lhsIdx_val_of_single rfl i q
theorem scoreR_0 (i : S512x2048.Idx) (q : dot_S512x160_S2048x160_S512x2048_1_1_0_0_n_n.contr.Idx) :
    (dot_S512x160_S2048x160_S512x2048_1_1_0_0_n_n.rhsIdx i q 0).val = (i 1).val := by
  unfold DotDims.rhsIdx
  rw [dif_neg (show ¬(0 : Fin S2048x160.rank) ∈ dot_S512x160_S2048x160_S512x2048_1_1_0_0_n_n.rhsBatch by decide), dif_pos (show (0 : Fin S2048x160.rank) ∈ dot_S512x160_S2048x160_S512x2048_1_1_0_0_n_n.rhsNonContracting by decide)]
  rfl
theorem scoreR_1 (i : S512x2048.Idx) (q : dot_S512x160_S2048x160_S512x2048_1_1_0_0_n_n.contr.Idx) :
    (dot_S512x160_S2048x160_S512x2048_1_1_0_0_n_n.rhsIdx i q 1).val = (q ⟨0, by decide⟩).val :=
  dot_S512x160_S2048x160_S512x2048_1_1_0_0_n_n.rhsIdx_val_of_single rfl i q

/-- The score product at (r, j): the row r of the left against the row j of the right. -/
theorem score_apply (q : FVec Ideal S512x160 .f32) (k : FVec Ideal S2048x160 .f32) (r : Fin 512) (j : Fin 2048) :
    matmul dot_S512x160_S2048x160_S512x2048_1_1_0_0_n_n none q k (constant S512x2048 .f32 0x00000000#32) (ix2 r j)
      = ∑ e : Fin 160, q (ix2 r e) * k (ix2 j e) := by
  simp only [matmul]
  rw [Ideal.matmul_constant_zero_apply, ← Equiv.sum_comp (ValueIdx.contrEquiv1 dot_S512x160_S2048x160_S512x2048_1_1_0_0_n_n 160 rfl rfl).symm]
  refine Finset.sum_congr rfl fun c _ => ?_
  have hk := ValueIdx.contrEquiv1_symm_val dot_S512x160_S2048x160_S512x2048_1_1_0_0_n_n 160 rfl rfl c
  have el : dot_S512x160_S2048x160_S512x2048_1_1_0_0_n_n.lhsIdx (ix2 r j) ((ValueIdx.contrEquiv1 dot_S512x160_S2048x160_S512x2048_1_1_0_0_n_n 160 rfl rfl).symm c) = ix2 r c := funext fun a => Fin.ext (by
    match a with
    | ⟨0, _⟩ => exact scoreL_0 _ _
    | ⟨1, _⟩ => exact (scoreL_1 _ _).trans hk)
  have er : dot_S512x160_S2048x160_S512x2048_1_1_0_0_n_n.rhsIdx (ix2 r j) ((ValueIdx.contrEquiv1 dot_S512x160_S2048x160_S512x2048_1_1_0_0_n_n 160 rfl rfl).symm c) = ix2 j c := funext fun a => Fin.ext (by
    match a with
    | ⟨0, _⟩ => exact scoreR_0 _ _
    | ⟨1, _⟩ => exact (scoreR_1 _ _).trans hk)
  rw [el, er]

-- the weighted sum: [512,2048] times [2048,160], contracting the keys
theorem mixL_0 (i : S512x160.Idx) (q : dot_S512x2048_S2048x160_S512x160_1_0_0_1_n_n.contr.Idx) :
    (dot_S512x2048_S2048x160_S512x160_1_0_0_1_n_n.lhsIdx i q 0).val = (i 0).val := by
  unfold DotDims.lhsIdx
  rw [dif_neg (show ¬(0 : Fin S512x2048.rank) ∈ dot_S512x2048_S2048x160_S512x160_1_0_0_1_n_n.lhsBatch by decide), dif_pos (show (0 : Fin S512x2048.rank) ∈ dot_S512x2048_S2048x160_S512x160_1_0_0_1_n_n.lhsNonContracting by decide)]
  rfl
theorem mixL_1 (i : S512x160.Idx) (q : dot_S512x2048_S2048x160_S512x160_1_0_0_1_n_n.contr.Idx) :
    (dot_S512x2048_S2048x160_S512x160_1_0_0_1_n_n.lhsIdx i q 1).val = (q ⟨0, by decide⟩).val :=
  dot_S512x2048_S2048x160_S512x160_1_0_0_1_n_n.lhsIdx_val_of_single rfl i q
theorem mixR_0 (i : S512x160.Idx) (q : dot_S512x2048_S2048x160_S512x160_1_0_0_1_n_n.contr.Idx) :
    (dot_S512x2048_S2048x160_S512x160_1_0_0_1_n_n.rhsIdx i q 0).val = (q ⟨0, by decide⟩).val :=
  dot_S512x2048_S2048x160_S512x160_1_0_0_1_n_n.rhsIdx_val_of_single rfl i q
theorem mixR_1 (i : S512x160.Idx) (q : dot_S512x2048_S2048x160_S512x160_1_0_0_1_n_n.contr.Idx) :
    (dot_S512x2048_S2048x160_S512x160_1_0_0_1_n_n.rhsIdx i q 1).val = (i 1).val := by
  unfold DotDims.rhsIdx
  rw [dif_neg (show ¬(1 : Fin S2048x160.rank) ∈ dot_S512x2048_S2048x160_S512x160_1_0_0_1_n_n.rhsBatch by decide), dif_pos (show (1 : Fin S2048x160.rank) ∈ dot_S512x2048_S2048x160_S512x160_1_0_0_1_n_n.rhsNonContracting by decide)]
  rfl

/-- The weighted sum at (r, e): the row r of the weights against the column e of the values. -/
theorem mix_apply (w : FVec Ideal S512x2048 .f32) (v : FVec Ideal S2048x160 .f32) (r : Fin 512) (e : Fin 160) :
    matmul dot_S512x2048_S2048x160_S512x160_1_0_0_1_n_n none w v (constant S512x160 .f32 0x00000000#32) (ix2 r e)
      = ∑ j : Fin 2048, w (ix2 r j) * v (ix2 j e) := by
  simp only [matmul]
  rw [Ideal.matmul_constant_zero_apply, ← Equiv.sum_comp (ValueIdx.contrEquiv1 dot_S512x2048_S2048x160_S512x160_1_0_0_1_n_n 2048 rfl rfl).symm]
  refine Finset.sum_congr rfl fun c _ => ?_
  have hk := ValueIdx.contrEquiv1_symm_val dot_S512x2048_S2048x160_S512x160_1_0_0_1_n_n 2048 rfl rfl c
  have el : dot_S512x2048_S2048x160_S512x160_1_0_0_1_n_n.lhsIdx (ix2 r e) ((ValueIdx.contrEquiv1 dot_S512x2048_S2048x160_S512x160_1_0_0_1_n_n 2048 rfl rfl).symm c) = ix2 r c := funext fun a => Fin.ext (by
    match a with
    | ⟨0, _⟩ => exact mixL_0 _ _
    | ⟨1, _⟩ => exact (mixL_1 _ _).trans hk)
  have er : dot_S512x2048_S2048x160_S512x160_1_0_0_1_n_n.rhsIdx (ix2 r e) ((ValueIdx.contrEquiv1 dot_S512x2048_S2048x160_S512x160_1_0_0_1_n_n 2048 rfl rfl).symm c) = ix2 c e := funext fun a => Fin.ext (by
    match a with
    | ⟨0, _⟩ => exact (mixR_0 _ _).trans hk
    | ⟨1, _⟩ => exact mixR_1 _ _)
  rw [el, er]

/-! ## Each intermediate read at an element -/

/-- The block as a matrix at (r, d). -/
theorem xMat_apply (x0 : FVec Ideal S1x512x160 .f32) (r : Fin 512) (d : Fin 160) :
    xMat x0 (ix2 r d) = x0 (ix3 (0 : Fin 1) r d) :=
  shapeCast_1ab_ab_apply x0 shapeCasts_S1x512x160_S512x160 r d

/-- A batch's rows as a matrix at (j, e). -/
theorem rowsMat_apply (x8 : FVec Ideal S1x2048x160 .f32) (j : Fin 2048) (e : Fin 160) :
    rowsMat x8 (ix2 j e) = x8 (ix3 (0 : Fin 1) j e) :=
  shapeCast_1ab_ab_apply x8 shapeCasts_S1x2048x160_S2048x160 j e

/-- The projected row r at lane e. -/
theorem qMat_apply (x1 : FVec Ideal S512x160 .f32) (x2 : FVec Ideal S160x160 .f32) (x4 : FVec Ideal S1x160 .f32)
    (r : Fin 512) (e : Fin 160) :
    qMat x1 x2 x4 (ix2 r e) = (∑ d : Fin 160, x1 (ix2 r d) * x2 (ix2 d e)) + x4 (ix2 (0 : Fin 1) e) := by
  unfold qMat
  refine (addf_apply _ _ _).trans ?_
  refine congrArg₂ (· + ·) (proj_apply x1 x2 r e) ?_
  refine (broadcastTo_1b_ab_apply _ broadcasts_S1x160_S512x160 r e).trans ?_
  exact congrFun (shapeCast_self x4 shapeCasts_S1x160_S1x160) _

/-- The score of row r against key j. -/
theorem sMat_apply (q : FVec Ideal S512x160 .f32) (k : FVec Ideal S2048x160 .f32) (r : Fin 512) (j : Fin 2048) :
    sMat q k (ix2 r j) = ∑ e : Fin 160, q (ix2 r e) * k (ix2 j e) :=
  score_apply q k r j

/-- Row r's maximum: the fold of max from minus infinity over the row. -/
theorem mVec_apply (s : FVec Ideal S512x2048 .f32) (r : Fin 512) :
    mVec s (ix1 r) = (Finset.univ : Finset (Fin 2048)).fold max negInf (fun j => s (ix2 r j)) := by
  unfold mVec
  refine (Ideal.multiReduction_maximumf_single s 0xFF800000#32 reduces_S512x2048_S512 (.inl rfl) rfl (ix1 r)).trans ?_
  show (Finset.univ : Finset (Fin 2048)).fold max (Ideal.ofBits .f32 0xFF800000#32)
      (s ∘ reduces_S512x2048_S512.lift (ix1 r)) = _
  refine congrArg (fun f => (Finset.univ : Finset (Fin 2048)).fold max negInf f) (funext fun j => ?_)
  show s (reduces_S512x2048_S512.lift (ix1 r) j) = s (ix2 r j)
  refine congrArg s (funext fun a => Fin.ext ?_)
  match a with
  | ⟨0, _⟩ => rfl
  | ⟨1, _⟩ => rfl

/-- The weight of key j in row r. -/
theorem wMat_apply (s : FVec Ideal S512x2048 .f32) (m : FVec Ideal S512 .f32) (r : Fin 512) (j : Fin 2048) :
    wMat s m (ix2 r j) = Ideal.exp (s (ix2 r j) - m (ix1 r)) := by
  unfold wMat
  show Ideal.exp (s (ix2 r j)
      - broadcastTo S512x2048 (shapeCast S512x1 m shapeCasts_S512_S512x1) broadcasts_S512x1_S512x2048 (ix2 r j)) = _
  refine congrArg (fun t => Ideal.exp (s (ix2 r j) - t)) ?_
  refine (RowCasts.broadcastTo_column_apply _ broadcasts_S512x1_S512x2048 r j).trans ?_
  exact RowCasts.shapeCast_column_apply m shapeCasts_S512_S512x1 r (0 : Fin 1)

/-- Row r's sum of weights. -/
theorem lVec_apply (w : FVec Ideal S512x2048 .f32) (r : Fin 512) :
    lVec w (ix1 r) = ∑ j : Fin 2048, w (ix2 r j) := by
  unfold lVec
  refine (Ideal.multiReduction_add_single w 0x00000000#32 reduces_S512x2048_S512 (.inl rfl) rfl (ix1 r)).trans ?_
  show ∑ j : Fin 2048, w (reduces_S512x2048_S512.lift (ix1 r) j) = _
  refine Finset.sum_congr rfl fun j _ => ?_
  refine congrArg w (funext fun a => Fin.ext ?_)
  match a with
  | ⟨0, _⟩ => rfl
  | ⟨1, _⟩ => rfl

/-- The weighted sum of the value rows at (r, e). -/
theorem oMat_apply (w : FVec Ideal S512x2048 .f32) (v : FVec Ideal S2048x160 .f32) (r : Fin 512) (e : Fin 160) :
    oMat w v (ix2 r e) = ∑ j : Fin 2048, w (ix2 r j) * v (ix2 j e) :=
  mix_apply w v r e

/-- The stored block at (u, r, e). -/
theorem outBlk_apply (o : FVec Ideal S512x160 .f32) (l : FVec Ideal S512 .f32) (x1 : FVec Ideal S512x160 .f32)
    (u : Fin 1) (r : Fin 512) (e : Fin 160) :
    outBlk o l x1 (ix3 u r e) = o (ix2 r e) * Ideal.div one32 (l (ix1 r)) + x1 (ix2 r e) := by
  unfold outBlk
  refine (shapeCast_ab_1ab_apply _ shapeCasts_S512x160_S1x512x160 u r e).trans ?_
  show o (ix2 r e)
      * broadcastTo S512x160
          (divf (broadcast S512x1 (Scalar.ofBits (F := Ideal) .f32 0x3F800000#32))
            (shapeCast S512x1 l shapeCasts_S512_S512x1))
          broadcasts_S512x1_S512x160 (ix2 r e)
      + x1 (ix2 r e) = _
  refine congrArg (fun t => o (ix2 r e) * t + x1 (ix2 r e)) ?_
  refine (RowCasts.broadcastTo_column_apply _ broadcasts_S512x1_S512x160 r e).trans ?_
  show Ideal.div (Ideal.ofBits .f32 0x3F800000#32) (shapeCast S512x1 l shapeCasts_S512_S512x1 (ix2 r (0 : Fin 1))) = _
  exact congrArg (Ideal.div one32) (RowCasts.shapeCast_column_apply l shapeCasts_S512_S512x1 r (0 : Fin 1))

/-! ## Row r of the block against the specification -/

section Row

variable (x0 : Vec Ideal S1x512x160 .f32) (x2 : Vec Ideal S160x160 .f32) (x4 : Vec Ideal S1x160 .f32)
  (x8 x18 : Vec Ideal S1x2048x160 .f32) (r : Fin 512)

/-- The projected rows of the block. -/
abbrev Qm : FVec Ideal S512x160 .f32 := qMat (xMat x0) x2 x4
/-- Their scores against the keys. -/
abbrev Sm : FVec Ideal S512x2048 .f32 := sMat (Qm x0 x2 x4) (rowsMat x8)
/-- The weights. -/
abbrev Wm : FVec Ideal S512x2048 .f32 := wMat (Sm x0 x2 x4 x8) (mVec (Sm x0 x2 x4 x8))

/-- The specification's query row r. -/
abbrev qRow : Fin 160 → EReal :=
  projRow (fun d => x0 (ix3 (0 : Fin 1) r d)) (fun d e' => x2 (ix2 d e')) (fun e' => x4 (ix2 (0 : Fin 1) e'))
/-- The specification's keys. -/
abbrev kRows : Fin 2048 → Fin 160 → EReal := fun j e' => x8 (ix3 (0 : Fin 1) j e')

theorem Qm_row (e : Fin 160) : Qm x0 x2 x4 (ix2 r e) = qRow x0 x2 x4 r e := by
  refine (qMat_apply (xMat x0) x2 x4 r e).trans ?_
  show _ = (∑ d : Fin 160, x0 (ix3 (0 : Fin 1) r d) * x2 (ix2 d e)) + x4 (ix2 (0 : Fin 1) e)
  refine congrArg (· + x4 (ix2 (0 : Fin 1) e)) (Finset.sum_congr rfl fun d _ => ?_)
  exact congrArg (· * x2 (ix2 d e)) (xMat_apply x0 r d)

theorem Sm_row (j : Fin 2048) : Sm x0 x2 x4 x8 (ix2 r j) = score (qRow x0 x2 x4 r) (kRows x8) j := by
  refine (sMat_apply _ _ r j).trans ?_
  show _ = ∑ e : Fin 160, qRow x0 x2 x4 r e * x8 (ix3 (0 : Fin 1) j e)
  refine Finset.sum_congr rfl fun e _ => ?_
  exact congrArg₂ (· * ·) (Qm_row x0 x2 x4 r e) (rowsMat_apply x8 j e)

theorem Mm_row : mVec (Sm x0 x2 x4 x8) (ix1 r) = rowMax (qRow x0 x2 x4 r) (kRows x8) := by
  refine (mVec_apply _ r).trans ?_
  show _ = (Finset.univ : Finset (Fin 2048)).fold max negInf (score (qRow x0 x2 x4 r) (kRows x8))
  exact congrArg (fun f => (Finset.univ : Finset (Fin 2048)).fold max negInf f)
    (funext fun j => Sm_row x0 x2 x4 x8 r j)

theorem Wm_row (j : Fin 2048) : Wm x0 x2 x4 x8 (ix2 r j) = weight (qRow x0 x2 x4 r) (kRows x8) j := by
  refine (wMat_apply _ _ r j).trans ?_
  show _ = Ideal.exp (score (qRow x0 x2 x4 r) (kRows x8) j - rowMax (qRow x0 x2 x4 r) (kRows x8))
  exact congrArg₂ (fun a b => Ideal.exp (a - b)) (Sm_row x0 x2 x4 x8 r j) (Mm_row x0 x2 x4 x8 r)

theorem Lm_row : lVec (Wm x0 x2 x4 x8) (ix1 r) = denom (qRow x0 x2 x4 r) (kRows x8) := by
  refine (lVec_apply _ r).trans ?_
  show _ = ∑ j : Fin 2048, weight (qRow x0 x2 x4 r) (kRows x8) j
  exact Finset.sum_congr rfl fun j _ => Wm_row x0 x2 x4 x8 r j

theorem Om_row (e : Fin 160) :
    oMat (Wm x0 x2 x4 x8) (rowsMat x18) (ix2 r e)
      = ∑ j : Fin 2048, weight (qRow x0 x2 x4 r) (kRows x8) j * x18 (ix3 (0 : Fin 1) j e) := by
  refine (oMat_apply _ _ r e).trans ?_
  refine Finset.sum_congr rfl fun j _ => ?_
  exact congrArg₂ (· * ·) (Wm_row x0 x2 x4 x8 r j) (rowsMat_apply x18 j e)

end Row

/-- The stored block at (0, r, e), from the five loaded blocks. -/
theorem pay_apply (x0 : Vec Ideal S1x512x160 .f32) (x2 : Vec Ideal S160x160 .f32) (x4 : Vec Ideal S1x160 .f32)
    (x8 x18 : Vec Ideal S1x2048x160 .f32) (u : Fin 1) (r : Fin 512) (e : Fin 160) :
    k1_pay1 (F := Ideal) x0 x2 x4 x8 x18 (ix3 u r e)
      = attnMulInv
          (projRow (fun d => x0 (ix3 (0 : Fin 1) r d)) (fun d e' => x2 (ix2 d e')) (fun e' => x4 (ix2 (0 : Fin 1) e')))
          (fun j e' => x8 (ix3 (0 : Fin 1) j e')) (fun j e' => x18 (ix3 (0 : Fin 1) j e'))
          (x0 (ix3 (0 : Fin 1) r e)) e := by
  refine (congrFun (pay_eq x0 x2 x4 x8 x18) (ix3 u r e)).trans ?_
  refine (outBlk_apply _ _ _ u r e).trans ?_
  show _ = (∑ j : Fin 2048, weight (qRow x0 x2 x4 r) (kRows x8) j * x18 (ix3 (0 : Fin 1) j e))
      * Ideal.div one32 (denom (qRow x0 x2 x4 r) (kRows x8)) + x0 (ix3 (0 : Fin 1) r e)
  refine congrArg₂ (· + ·) (congrArg₂ (· * ·) (Om_row x0 x2 x4 x8 x18 r e) ?_) (xMat_apply x0 r e)
  exact congrArg (Ideal.div one32) (Lm_row x0 x2 x4 x8 r)

end Cert.KernelIdeal.AttnPayload

end
-- ==== Proof.AttnRegion.lean ====
/-
  The second region: attention. Each grid point (b, s) takes 512 rows of batch b of x, the whole of batch b of the keys
  and of the values, and writes the same 512 rows of the result; over the whole grid the result array is the attention of
  every projected row of x over its batch, normalised after the weighted sum, plus x.

  The road. The block indices of the six windows are decided over the 64 grid points: the block of x and the block of
  the result sit at the same index (b, s, 0), the keys' and the values' at (b, 0, 0), the weight matrix and the bias at
  index 0; and every (b, s, 0) with b < 16, s < 4 is some point's. Element (u, r, e) of a point's result block is
  element (b, 512 s + r, e) of the array, and each input block read at its own local index is the entry array read at
  the matching place: x at (b, 512 s + r, d), the keys and the values at (b, j, e'), the weights and the bias where they
  are. So what a point writes back is its block of the attention array, and since row r' of batch b lies in the block of
  the point with index (b, r' / 512, 0), the blocks cover the array.
-/
import proofs.«116099_g83305185673742_cont_9to1c4b_147_3_alg».proof.Proof.Gen.KernelIdeal.Frame
import proofs.«116099_g83305185673742_cont_9to1c4b_147_3_alg».proof.Proof.AttnPayload
import Idealize.ShloMosaic.Lib.Pipeline.Value

set_option maxRecDepth 16384

noncomputable section

namespace Cert.KernelIdeal.AttnRegion

open Cert.KernelIdeal Cert.KernelIdeal.Gen Cert.Attn
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The block indices, decided over the grid -/

theorem zero3 : (![0, 0, 0] : Fin 3 → Nat) = fun _ => 0 := funext fun a => by fin_cases a <;> rfl
theorem zero2 : (![0, 0] : Fin 2 → Nat) = fun _ => 0 := funext fun a => by fin_cases a <;> rfl

/-- At every point: x's block index is the result's; the weight matrix and the bias are at index 0; the keys' and the
    values' block index is (the result's batch, 0, 0); the result's block index is below (16, 4, 1). -/
theorem block_indices : ∀ t : Fin cfg1.N,
    win1_0.index t (0 : Fin 3) = win1_5.index t (0 : Fin 3)
    ∧ win1_0.index t (1 : Fin 3) = win1_5.index t (1 : Fin 3)
    ∧ win1_0.index t (2 : Fin 3) = win1_5.index t (2 : Fin 3)
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (0 : Fin 3)
    ∧ win1_3.index t (1 : Fin 3) = 0 ∧ win1_3.index t (2 : Fin 3) = 0
    ∧ win1_4.index t (0 : Fin 3) = win1_5.index t (0 : Fin 3)
    ∧ win1_4.index t (1 : Fin 3) = 0 ∧ win1_4.index t (2 : Fin 3) = 0
    ∧ win1_5.index t (0 : Fin 3) ≤ 15 ∧ win1_5.index t (1 : Fin 3) ≤ 3 ∧ win1_5.index t (2 : Fin 3) ≤ 0 :=
  (by decide +kernel : ∀ t : Fin grid1.N, _)

/-- Every block index (b, s, 0) of the result is some point's. -/
theorem block_onto : ∀ (q0 : Fin 16) (q1 : Fin 4) (q2 : Fin 1), ∃ t : Fin cfg1.N, win1_5.index t = ![q0.val, q1.val, q2.val] :=
  (by decide +kernel : ∀ (q0 : Fin 16) (q1 : Fin 4) (q2 : Fin 1), ∃ t : Fin grid1.N, win1_5.index t = ![q0.val, q1.val, q2.val])

/-! ## A point's batch and rows -/

/-- The batch point `t` works on. -/
def batchOf (t : Fin cfg1.N) : Fin 16 := ⟨win1_5.index t (0 : Fin 3), by have := block_indices t; omega⟩

/-- The row of the array that row `r` of point `t`'s block is. -/
def rowOf (t : Fin cfg1.N) (r : Fin 512) : Fin 2048 :=
  ⟨win1_5.index t (1 : Fin 3) * 512 + r.val, by have := block_indices t; have := r.isLt; omega⟩

/-- The attention array of the contents the region is entered with. -/
abbrev attnOf (c : Dev nD) : A3 :=
  attnArrMulInv (V c main_arg0) (V c main_arg2) (fun e => V c main_v0 (ix2 (0 : Fin 1) e)) (V c main_v3_0) (V c main_v3_1)

/-- Element (u, r, e) of point `t`'s result block is element (batch, row, e) of the array. -/
theorem out_place (t : Fin cfg1.N) (u : Fin 1) (r : Fin 512) (e : Fin 160) :
    ((cfg1.win 5).blk t).view.emb (ix3 u r e) = ix3 (batchOf t) (rowOf t r) e := by
  obtain ⟨e0, e1, e2, e3, e4, e5, e6, e7, e8, e9, e10, e11, e12, b0, b1, b2⟩ := block_indices t
  funext a; apply Fin.ext
  match a with
  | ⟨0, _⟩ => show win1_5.index t (0 : Fin 3) * 1 + 1 * u.val = win1_5.index t (0 : Fin 3); have := u.isLt; omega
  | ⟨1, _⟩ => show win1_5.index t (1 : Fin 3) * 512 + 1 * r.val = win1_5.index t (1 : Fin 3) * 512 + r.val; omega
  | ⟨2, _⟩ => show win1_5.index t (2 : Fin 3) * 160 + 1 * e.val = e.val; omega

/-! ## Each input block, read where the result block's place says -/

/-- Row `r` of the block of x is row `rowOf t r` of batch `batchOf t` of x. -/
theorem x_block (c : Dev nD) (t : Fin cfg1.N) (u : Fin 1) (r : Fin 512) (d : Fin 160) :
    (iblk1 V c 0 t : Vec Ideal S1x512x160 .f32) (ix3 u r d) = V c main_arg0 (ix3 (batchOf t) (rowOf t r) d) := by
  obtain ⟨e0, e1, e2, e3, e4, e5, e6, e7, e8, e9, e10, e11, e12, b0, b1, b2⟩ := block_indices t
  unfold iblk1
  rw [View.read_apply]
  show V c main_arg0 _ = V c main_arg0 _
  refine congrArg (V c main_arg0) ?_
  funext a; apply Fin.ext
  match a with
  | ⟨0, _⟩ => show win1_0.index t (0 : Fin 3) * 1 + 1 * u.val = win1_5.index t (0 : Fin 3); have := u.isLt; omega
  | ⟨1, _⟩ => show win1_0.index t (1 : Fin 3) * 512 + 1 * r.val = win1_5.index t (1 : Fin 3) * 512 + r.val; omega
  | ⟨2, _⟩ => show win1_0.index t (2 : Fin 3) * 160 + 1 * d.val = d.val; omega

/-- The block of the weight matrix is the weight matrix. -/
theorem w_block (c : Dev nD) (t : Fin cfg1.N) (d e : Fin 160) :
    (iblk1 V c 1 t : Vec Ideal S160x160 .f32) (ix2 d e) = V c main_arg2 (ix2 d e) := by
  obtain ⟨e0, e1, e2, e3, e4, e5, e6, e7, e8, e9, e10, e11, e12, b0, b1, b2⟩ := block_indices t
  unfold iblk1
  rw [View.read_apply]
  show V c main_arg2 _ = V c main_arg2 _
  refine congrArg (V c main_arg2) ?_
  funext a; apply Fin.ext
  match a with
  | ⟨0, _⟩ => show win1_1.index t (0 : Fin 2) * 160 + 1 * d.val = d.val; omega
  | ⟨1, _⟩ => show win1_1.index t (1 : Fin 2) * 160 + 1 * e.val = e.val; omega

/-- The block of the bias is the bias. -/
theorem bias_block (c : Dev nD) (t : Fin cfg1.N) (u : Fin 1) (e : Fin 160) :
    (iblk1 V c 2 t : Vec Ideal S1x160 .f32) (ix2 u e) = V c main_v0 (ix2 (0 : Fin 1) e) := by
  obtain ⟨e0, e1, e2, e3, e4, e5, e6, e7, e8, e9, e10, e11, e12, b0, b1, b2⟩ := block_indices t
  unfold iblk1
  rw [View.read_apply]
  show V c main_v0 _ = V c main_v0 _
  refine congrArg (V c main_v0) ?_
  funext a; apply Fin.ext
  match a with
  | ⟨0, _⟩ => show win1_2.index t (0 : Fin 2) * 1 + 1 * u.val = (0 : Fin 1).val; have := u.isLt; simp only [Fin.val_zero]; omega
  | ⟨1, _⟩ => show win1_2.index t (1 : Fin 2) * 160 + 1 * e.val = e.val; omega

/-- The block of the keys is all of batch `batchOf t` of the keys. -/
theorem key_block (c : Dev nD) (t : Fin cfg1.N) (u : Fin 1) (j : Fin 2048) (e : Fin 160) :
    (iblk1 V c 3 t : Vec Ideal S1x2048x160 .f32) (ix3 u j e) = V c main_v3_0 (ix3 (batchOf t) j e) := by
  obtain ⟨e0, e1, e2, e3, e4, e5, e6, e7, e8, e9, e10, e11, e12, b0, b1, b2⟩ := block_indices t
  unfold iblk1
  rw [View.read_apply]
  show V c main_v3_0 _ = V c main_v3_0 _
  refine congrArg (V c main_v3_0) ?_
  funext a; apply Fin.ext
  match a with
  | ⟨0, _⟩ => show win1_3.index t (0 : Fin 3) * 1 + 1 * u.val = win1_5.index t (0 : Fin 3); have := u.isLt; omega
  | ⟨1, _⟩ => show win1_3.index t (1 : Fin 3) * 2048 + 1 * j.val = j.val; omega
  | ⟨2, _⟩ => show win1_3.index t (2 : Fin 3) * 160 + 1 * e.val = e.val; omega

/-- The block of the values is all of batch `batchOf t` of the values. -/
theorem value_block (c : Dev nD) (t : Fin cfg1.N) (u : Fin 1) (j : Fin 2048) (e : Fin 160) :
    (iblk1 V c 4 t : Vec Ideal S1x2048x160 .f32) (ix3 u j e) = V c main_v3_1 (ix3 (batchOf t) j e) := by
  obtain ⟨e0, e1, e2, e3, e4, e5, e6, e7, e8, e9, e10, e11, e12, b0, b1, b2⟩ := block_indices t
  unfold iblk1
  rw [View.read_apply]
  show V c main_v3_1 _ = V c main_v3_1 _
  refine congrArg (V c main_v3_1) ?_
  funext a; apply Fin.ext
  match a with
  | ⟨0, _⟩ => show win1_4.index t (0 : Fin 3) * 1 + 1 * u.val = win1_5.index t (0 : Fin 3); have := u.isLt; omega
  | ⟨1, _⟩ => show win1_4.index t (1 : Fin 3) * 2048 + 1 * j.val = j.val; omega
  | ⟨2, _⟩ => show win1_4.index t (2 : Fin 3) * 160 + 1 * e.val = e.val; omega

/-! ## What a point writes back -/

/-- Point `t` writes back its block of the attention array: the body's element (u, r, e) is the attention of row r of
    the block of x over the loaded keys and values, and each of the five loaded blocks is the entry array at the place
    the result element has in the array. -/
theorem written_block (c : Dev nD) (t : Fin cfg1.N) :
    (dat1 V c).flushed 5 t = ((cfg1.win 5).blk t).view.read (Elt Ideal) (attnOf V c) := by
  show (cfg1.win 5).cut (grid1.coords t) ((dat1 V c).after 5 t) = _
  rw [after1_5]
  unfold out1_5
  rw [View.canon_unit_zero zero3]
  simp only [View.ld_unit_zero (S := S1x512x160) zero3, View.ld_unit_zero (S := S160x160) zero2,
    View.ld_unit_zero (S := S1x160) zero2, View.ld_unit_zero (S := S1x2048x160) zero3]
  refine funext fun (y : S1x512x160.Idx) => ?_
  obtain ⟨u, r, e, rfl⟩ : ∃ (u : Fin 1) (r : Fin 512) (e : Fin 160), y = ix3 u r e := ⟨y 0, y 1, y 2, eq_ix3 y⟩
  refine (AttnPayload.pay_apply (iblk1 V c 0 t) (iblk1 V c 1 t) (iblk1 V c 2 t) (iblk1 V c 3 t) (iblk1 V c 4 t) u r e).trans ?_
  show _ = attnOf V c (((cfg1.win 5).blk t).view.emb (ix3 u r e))
  rw [out_place]
  have hx : (fun d => (iblk1 V c 0 t : Vec Ideal S1x512x160 .f32) (ix3 (0 : Fin 1) r d))
      = fun d => V c main_arg0 (ix3 (batchOf t) (rowOf t r) d) := funext fun d => x_block V c t 0 r d
  have hw : (fun d e' => (iblk1 V c 1 t : Vec Ideal S160x160 .f32) (ix2 d e'))
      = fun d e' => V c main_arg2 (ix2 d e') := funext fun d => funext fun e' => w_block V c t d e'
  have hb : (fun e' => (iblk1 V c 2 t : Vec Ideal S1x160 .f32) (ix2 (0 : Fin 1) e'))
      = fun e' => V c main_v0 (ix2 (0 : Fin 1) e') := funext fun e' => bias_block V c t 0 e'
  have hk : (fun j e' => (iblk1 V c 3 t : Vec Ideal S1x2048x160 .f32) (ix3 (0 : Fin 1) j e'))
      = fun j e' => V c main_v3_0 (ix3 (batchOf t) j e') := funext fun j => funext fun e' => key_block V c t 0 j e'
  have hv : (fun j e' => (iblk1 V c 4 t : Vec Ideal S1x2048x160 .f32) (ix3 (0 : Fin 1) j e'))
      = fun j e' => V c main_v3_1 (ix3 (batchOf t) j e') := funext fun j => funext fun e' => value_block V c t 0 j e'
  rw [hx, hw, hb, hk, hv, x_block V c t 0 r e]
  rfl

/-! ## The blocks cover the array -/

/-- An index of the array is in point `t`'s block iff each coordinate is in the block's range on its axis. -/
theorem mem_block (t : Fin cfg1.N) (i : S16x2048x160.Idx) :
    i ∈ ((cfg1.win 5).blk t).view.set ↔ ∀ a : Fin 3, win1_5.index t a * S1x512x160.size a ≤ (i a).val
      ∧ (i a).val < win1_5.index t a * S1x512x160.size a + S1x512x160.size a := by
  show i ∈ ((View.whole main_v4).slice (win1_5.rect t)).set ↔ _
  rw [View.set_slice_whole, Rect.mem_set_unit]
  exact Iff.rfl

/-- Row r' of batch b is in the block of the point with block index (b, r' / 512, 0), which writes back. -/
theorem blocks_cover (i : S16x2048x160.Idx) :
    ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 160 := (i 2).isLt
  obtain ⟨t, ht⟩ := block_onto ⟨(i 0).val, hi0⟩ ⟨(i 1).val / 512, by omega⟩ ⟨0, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 160 ≤ (i 2).val ∧ (i 2).val < win1_5.index t (2 : Fin 3) * 160 + 160; omega

/-! ## The result array -/

/-- After the region the result array is the attention of x over the keys and values it found. -/
theorem out_arr (c : Dev nD) :
    (dat1 V c).arrAt 5 cfg1.N
      = attnArrMulInv (V c main_arg0) (V c main_arg2) (fun e => V c main_v0 (ix2 (0 : Fin 1) e))
          (V c main_v3_0) (V c main_v3_1) :=
  (dat1 V c).arrAt_eq_of_cover 5 (attnOf V c) (fun t _ => written_block V c t) blocks_cover

end Cert.KernelIdeal.AttnRegion

end
-- ==== Proof.Glue.lean ====
/-
  Between the launch and the result: what each region finds in the arrays it reads.

  Before the first region the host only reshapes the three biases from [160] to [1,160]; every argument is as launched.
  The first region writes the keys and the values and nothing else, so the second region finds x, Wq and the reshaped bq
  as the host left them, and the keys and values as the first region's write-backs left them. Substituting, the result
  array is the attention of the projected rows of x over the projected rows of y, as a function of the eight arguments.
-/
import proofs.«116099_g83305185673742_cont_9to1c4b_147_3_alg».proof.Proof.Gen.KernelIdeal.Frame
import proofs.«116099_g83305185673742_cont_9to1c4b_147_3_alg».proof.Proof.KV
import proofs.«116099_g83305185673742_cont_9to1c4b_147_3_alg».proof.Proof.AttnRegion
import Idealize.ShloMosaic.Lib.StableHlo.Run
import Idealize.ShloMosaic.Lib.ValueLayout

set_option maxRecDepth 16384

noncomputable section

namespace Cert.KernelIdeal.Glue

open Cert.KernelIdeal Cert.KernelIdeal.Gen Cert.Attn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the first region is entered with -/

theorem entry_x (c : Dev nD) : V1 m ρ c main_arg0 = m ((c : Thread nD τ).loc main_arg0) := by
  dsimp only [V1, W1, W0, hostOps0]; after_results
theorem entry_y (c : Dev nD) : V1 m ρ c main_arg1 = m ((c : Thread nD τ).loc main_arg1) := by
  dsimp only [V1, W1, W0, hostOps0]; after_results
theorem entry_wq (c : Dev nD) : V1 m ρ c main_arg2 = m ((c : Thread nD τ).loc main_arg2) := by
  dsimp only [V1, W1, W0, hostOps0]; after_results
theorem entry_wk (c : Dev nD) : V1 m ρ c main_arg4 = m ((c : Thread nD τ).loc main_arg4) := by
  dsimp only [V1, W1, W0, hostOps0]; after_results
theorem entry_wv (c : Dev nD) : V1 m ρ c main_arg6 = m ((c : Thread nD τ).loc main_arg6) := by
  dsimp only [V1, W1, W0, hostOps0]; after_results

/-- A bias reshaped to one row reads, at lane e of that row, the bias at e. -/
theorem entry_bq (c : Dev nD) (e : Fin 160) : V1 m ρ c main_v0 (ix2 (0 : Fin 1) e) = m ((c : Thread nD τ).loc main_arg3) (ix1 e) := by
  have h : V1 m ρ c main_v0 = shapeCast S1x160 (m ((c : Thread nD τ).loc main_arg3)) shapeCasts_S160_S1x160 := by
    dsimp only [V1, W1, W0, hostOps0]; after_results; rfl
  rw [h]; exact shapeCast_a_1a_apply _ _ 0 e
theorem entry_bk (c : Dev nD) (e : Fin 160) : V1 m ρ c main_v1 (ix2 (0 : Fin 1) e) = m ((c : Thread nD τ).loc main_arg5) (ix1 e) := by
  have h : V1 m ρ c main_v1 = shapeCast S1x160 (m ((c : Thread nD τ).loc main_arg5)) shapeCasts_S160_S1x160 := by
    dsimp only [V1, W1, W0, hostOps0]; after_results; rfl
  rw [h]; exact shapeCast_a_1a_apply _ _ 0 e
theorem entry_bv (c : Dev nD) (e : Fin 160) : V1 m ρ c main_v2 (ix2 (0 : Fin 1) e) = m ((c : Thread nD τ).loc main_arg7) (ix1 e) := by
  have h : V1 m ρ c main_v2 = shapeCast S1x160 (m ((c : Thread nD τ).loc main_arg7)) shapeCasts_S160_S1x160 := by
    dsimp only [V1, W1, W0, hostOps0]; after_results; rfl
  rw [h]; exact shapeCast_a_1a_apply _ _ 0 e

/-! ## What the second region is entered with -/

theorem mid_x (c : Dev nD) : V2 m ρ c main_arg0 = m ((c : Thread nD τ).loc main_arg0) :=
  (W2_of_ne m ρ c main_arg0 (by decide)).trans (entry_x m ρ c)
theorem mid_wq (c : Dev nD) : V2 m ρ c main_arg2 = m ((c : Thread nD τ).loc main_arg2) :=
  (W2_of_ne m ρ c main_arg2 (by decide)).trans (entry_wq m ρ c)
theorem mid_bq (c : Dev nD) (e : Fin 160) : V2 m ρ c main_v0 (ix2 (0 : Fin 1) e) = m ((c : Thread nD τ).loc main_arg3) (ix1 e) :=
  (congrFun (W2_of_ne m ρ c main_v0 (by decide)) (ix2 (0 : Fin 1) e)).trans (entry_bq m ρ c e)

/-- The keys the second region finds: y through Wk plus bk. -/
theorem mid_keys (c : Dev nD) :
    V2 m ρ c main_v3_0 = projArr (m ((c : Thread nD τ).loc main_arg1)) (m ((c : Thread nD τ).loc main_arg4)) (fun e => m ((c : Thread nD τ).loc main_arg5) (ix1 e)) := by
  refine (W2_arr m ρ c 5).trans ((KV.keys_arr (V1 m ρ) c).trans ?_)
  rw [entry_y, entry_wk, funext (entry_bk m ρ c)]
/-- The values the second region finds: y through Wv plus bv. -/
theorem mid_values (c : Dev nD) :
    V2 m ρ c main_v3_1 = projArr (m ((c : Thread nD τ).loc main_arg1)) (m ((c : Thread nD τ).loc main_arg6)) (fun e => m ((c : Thread nD τ).loc main_arg7) (ix1 e)) := by
  refine (W2_arr m ρ c 6).trans ((KV.values_arr (V1 m ρ) c).trans ?_)
  rw [entry_y, entry_wv, funext (entry_bv m ρ c)]

/-! ## The result array, of the arguments -/

theorem result_arr (c : Dev nD) :
    (dat1 (V2 m ρ) c).arrAt 5 cfg1.N
      = attnArrMulInv (m ((c : Thread nD τ).loc main_arg0)) (m ((c : Thread nD τ).loc main_arg2)) (fun e => m ((c : Thread nD τ).loc main_arg3) (ix1 e))
          (projArr (m ((c : Thread nD τ).loc main_arg1)) (m ((c : Thread nD τ).loc main_arg4)) (fun e => m ((c : Thread nD τ).loc main_arg5) (ix1 e)))
          (projArr (m ((c : Thread nD τ).loc main_arg1)) (m ((c : Thread nD τ).loc main_arg6)) (fun e => m ((c : Thread nD τ).loc main_arg7) (ix1 e))) := by
  refine (AttnRegion.out_arr (V2 m ρ) c).trans ?_
  rw [mid_x, mid_wq, funext (mid_bq m ρ c), mid_keys, mid_values]

end Cert.KernelIdeal.Glue

end
-- ==== Proof.RefValue.lean ====
/-
  The reference, read index by index: the projections, the scores, the softmax with every weight normalised, the
  weighted sum of the values, plus x.
-/
import proofs.«116099_g83305185673742_cont_9to1c4b_147_3_alg».proof.Proof.Gen.ReferenceIdeal.Read
import proofs.«116099_g83305185673742_cont_9to1c4b_147_3_alg».proof.Proof.Spec
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.ValueIdx

section Pieces

variable (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (x6 : (⟨S160x160, .f32⟩ : BufTy).Contents (Elt Ideal))
    (x7 : (⟨S160, .f32⟩ : BufTy).Contents (Elt Ideal))

/-! ## The index maps at literal coordinates -/

private theorem lidx_v0_at (p : Fin 16) (r : Fin 2048) (e k : Fin 160) : lidx_main_v0 (ix3 p r e) k = ix3 p r k :=
  funext fun a => Fin.ext (by match a with | ⟨0, _⟩ => rfl | ⟨1, _⟩ => rfl | ⟨2, _⟩ => rfl)

private theorem ridx_v0_at (p : Fin 16) (r : Fin 2048) (e k : Fin 160) : ridx_main_v0 (ix3 p r e) k = ix2 k e :=
  funext fun a => Fin.ext (by match a with | ⟨0, _⟩ => rfl | ⟨1, _⟩ => rfl)

private theorem idx_v1_v2_at (p : Fin 16) (r : Fin 2048) (e : Fin 160) : idx_main_v1 (idx_main_v2 (ix3 p r e)) = ix1 e :=
  funext fun a => Fin.ext (by match a with | ⟨0, _⟩ => rfl)

private theorem lidx_v12_at (p : Fin 16) (r j : Fin 2048) (k : Fin 160) : lidx_main_v12 (ix3 p r j) k = ix3 p r k :=
  funext fun a => Fin.ext (by match a with | ⟨0, _⟩ => rfl | ⟨1, _⟩ => rfl | ⟨2, _⟩ => rfl)

private theorem ridx_v12_at (p : Fin 16) (r j : Fin 2048) (k : Fin 160) : ridx_main_v12 (ix3 p r j) k = ix3 p j k :=
  funext fun a => Fin.ext (by match a with | ⟨0, _⟩ => rfl | ⟨1, _⟩ => rfl | ⟨2, _⟩ => rfl)

/-! ## The three projections -/

/-- The first projection at (p, r, e): row (p, r) of x through the first weight matrix, plus the bias. -/
theorem v3_at (p : Fin 16) (r : Fin 2048) (e : Fin 160) :
    val_main_v3 (F := Ideal) x0 x2 x3 (ix3 p r e)
      = projRow (fun d => x0 (ix3 p r d)) (fun d e' => x2 (ix2 d e')) (fun e' => x3 (ix1 e')) e := by
  rw [val_main_v3_apply, val_main_v0_apply, val_main_v2_apply, val_main_v1_apply, idx_v1_v2_at]
  unfold projRow
  refine congrArg (· + x3 (ix1 e)) ?_
  refine Finset.sum_congr rfl fun k _ => ?_
  rw [lidx_v0_at, ridx_v0_at]

/-- The second and third projections are the same operation on other arguments. -/
theorem v7_eq : val_main_v7 (F := Ideal) x1 x4 x5 = val_main_v3 (F := Ideal) x1 x4 x5 := rfl
theorem v11_eq : val_main_v11 (F := Ideal) x1 x6 x7 = val_main_v3 (F := Ideal) x1 x6 x7 := rfl

/-- A projection as a whole array. -/
theorem v3_arr : val_main_v3 (F := Ideal) x0 x2 x3 = projArr x0 x2 (fun e => x3 (ix1 e)) := by
  funext i
  obtain ⟨p, r, e, rfl⟩ : ∃ (p : Fin 16) (r : Fin 2048) (e : Fin 160), i = ix3 p r e := ⟨i 0, i 1, i 2, eq_ix3 i⟩
  exact v3_at x0 x2 x3 p r e

end Pieces

section Attention

variable (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (x6 : (⟨S160x160, .f32⟩ : BufTy).Contents (Elt Ideal))
    (x7 : (⟨S160, .f32⟩ : BufTy).Contents (Elt Ideal))

/-- The projected query row (p, r). -/
private abbrev qOf (p : Fin 16) (r : Fin 2048) : Fin 160 → EReal :=
  projRow (fun d => x0 (ix3 p r d)) (fun d e => x2 (ix2 d e)) (fun e => x3 (ix1 e))

/-- The projected keys of batch p. -/
private abbrev kOf (p : Fin 16) : Fin 2048 → Fin 160 → EReal :=
  fun j e => projArr x1 x4 (fun e' => x5 (ix1 e')) (ix3 p j e)

/-- The projected values of batch p. -/
private abbrev vOf (p : Fin 16) : Fin 2048 → Fin 160 → EReal :=
  fun j e => projArr x1 x6 (fun e' => x7 (ix1 e')) (ix3 p j e)

/-! ## The scores -/

theorem v12_at (p : Fin 16) (r j : Fin 2048) :
    val_main_v12 (F := Ideal) x0 x1 x2 x3 x4 x5 (ix3 p r j) = score (qOf x0 x2 x3 p r) (kOf x1 x4 x5 p) j := by
  rw [val_main_v12_apply]
  unfold score
  refine Finset.sum_congr rfl fun k _ => ?_
  rw [lidx_v12_at, ridx_v12_at, v3_at, v7_eq, v3_at]
  rfl

/-! ## The row maximum -/

private theorem h_red : S16x2048x2048.Reduces [2] S16x2048 := by decide

/-- Row (p, r) with key j put back is (p, r, j). -/
private theorem lift_at (p : Fin 16) (r : Fin 2048) (k : Fin (S16x2048x2048.size 2)) :
    h_red.lift (ix2 p r) k = ix3 p r (⟨k.val, k.isLt⟩ : Fin 2048) :=
  funext fun a => Fin.ext (by match a with | ⟨0, _⟩ => rfl | ⟨1, _⟩ => rfl | ⟨2, _⟩ => rfl)

theorem v13_at (p : Fin 16) (r : Fin 2048) :
    val_main_v13 (F := Ideal) x0 x1 x2 x3 x4 x5 (ix2 p r) = rowMax (qOf x0 x2 x3 p r) (kOf x1 x4 x5 p) := by
  unfold val_main_v13
  rw [Host.reduce_eq_fold_single FloatOps.maximumf _ _ reducesTo_S16x2048x2048_S16x2048_d2 h_red h_S_]
  have hf : (val_main_v12 (F := Ideal) x0 x1 x2 x3 x4 x5 ∘ h_red.lift (ix2 p r))
      = fun k : Fin 2048 => score (qOf x0 x2 x3 p r) (kOf x1 x4 x5 p) k :=
    funext fun k => (congrArg (val_main_v12 (F := Ideal) x0 x1 x2 x3 x4 x5) (lift_at p r k)).trans
      (v12_at x0 x1 x2 x3 x4 x5 p r ⟨k.val, k.isLt⟩)
  unfold rowMax
  exact congrArg (fun f => Finset.fold max negInf f (Finset.univ : Finset (Fin 2048))) hf

/-- The maximum with −∞ is the other operand. -/
private theorem max_negInf (m : EReal) : max negInf m = m := by
  show max (Ideal.ofBits .f32 0xFF800000#32) m = m
  simp [Ideal.ofBits, Ideal.ieee]

theorem v15_at (p : Fin 16) (r : Fin 2048) :
    val_main_v15 (F := Ideal) x0 x1 x2 x3 x4 x5 (ix2 p r) = rowMax (qOf x0 x2 x3 p r) (kOf x1 x4 x5 p) := by
  rw [val_main_v15_apply, v13_at, val_main_v14_apply, val_main_cst_0_apply]
  exact max_negInf _

/-! ## The weights and their sum -/

private theorem idx_v16_v17_at (p : Fin 16) (r j : Fin 2048) : idx_main_v16 (idx_main_v17 (ix3 p r j)) = ix2 p r :=
  funext fun a => Fin.ext (by match a with | ⟨0, _⟩ => rfl | ⟨1, _⟩ => rfl)

theorem v19_at (p : Fin 16) (r j : Fin 2048) :
    val_main_v19 (F := Ideal) x0 x1 x2 x3 x4 x5 (ix3 p r j) = weight (qOf x0 x2 x3 p r) (kOf x1 x4 x5 p) j := by
  rw [val_main_v19_apply, val_main_v18_apply, val_main_v17_apply, val_main_v16_apply, idx_v16_v17_at, v15_at, v12_at]
  rfl

private theorem idx_v20_at (p : Fin 16) (r k : Fin 2048) : idx_main_v20 (ix2 p r) k = ix3 p r k :=
  funext fun a => Fin.ext (by match a with | ⟨0, _⟩ => rfl | ⟨1, _⟩ => rfl | ⟨2, _⟩ => rfl)

theorem v20_at (p : Fin 16) (r : Fin 2048) :
    val_main_v20 (F := Ideal) x0 x1 x2 x3 x4 x5 (ix2 p r) = denom (qOf x0 x2 x3 p r) (kOf x1 x4 x5 p) := by
  rw [val_main_v20_apply, val_main_cst_1_apply]
  show Ideal.ofBits .f32 0x00000000#32 + _ = _
  rw [Ideal.ofBits_zero_f32, zero_add]
  unfold denom
  refine Finset.sum_congr rfl fun k _ => ?_
  rw [idx_v20_at, v19_at]

private theorem idx_v21_v22_at (p : Fin 16) (r j : Fin 2048) : idx_main_v21 (idx_main_v22 (ix3 p r j)) = ix2 p r :=
  funext fun a => Fin.ext (by match a with | ⟨0, _⟩ => rfl | ⟨1, _⟩ => rfl)

theorem v23_at (p : Fin 16) (r j : Fin 2048) :
    val_main_v23 (F := Ideal) x0 x1 x2 x3 x4 x5 (ix3 p r j)
      = Ideal.div (weight (qOf x0 x2 x3 p r) (kOf x1 x4 x5 p) j) (denom (qOf x0 x2 x3 p r) (kOf x1 x4 x5 p)) := by
  rw [val_main_v23_apply, val_main_v22_apply, val_main_v21_apply, idx_v21_v22_at, v20_at, v19_at]
  rfl

/-! ## The weighted sum of the values, plus x -/

private theorem lidx_v24_at (p : Fin 16) (r k : Fin 2048) (e : Fin 160) : lidx_main_v24 (ix3 p r e) k = ix3 p r k :=
  funext fun a => Fin.ext (by match a with | ⟨0, _⟩ => rfl | ⟨1, _⟩ => rfl | ⟨2, _⟩ => rfl)

private theorem ridx_v24_at (p : Fin 16) (r k : Fin 2048) (e : Fin 160) : ridx_main_v24 (ix3 p r e) k = ix3 p k e :=
  funext fun a => Fin.ext (by match a with | ⟨0, _⟩ => rfl | ⟨1, _⟩ => rfl | ⟨2, _⟩ => rfl)

theorem v25_at (p : Fin 16) (r : Fin 2048) (e : Fin 160) :
    val_main_v25 (F := Ideal) x0 x1 x2 x3 x4 x5 x6 x7 (ix3 p r e)
      = attnDivEach (qOf x0 x2 x3 p r) (kOf x1 x4 x5 p) (vOf x1 x6 x7 p) (x0 (ix3 p r e)) e := by
  rw [val_main_v25_apply, val_main_v24_apply]
  unfold attnDivEach
  refine congrArg (· + x0 (ix3 p r e)) ?_
  refine Finset.sum_congr rfl fun k _ => ?_
  rw [lidx_v24_at, ridx_v24_at, v23_at, v11_eq, v3_at]
  rfl

end Attention

/-- The reference's result, as one function of its eight arguments. -/
theorem ref_arr (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (x6 : (⟨S160x160, .f32⟩ : BufTy).Contents (Elt Ideal))
    (x7 : (⟨S160, .f32⟩ : BufTy).Contents (Elt Ideal)) :
    val_main_v25 (F := Ideal) x0 x1 x2 x3 x4 x5 x6 x7
      = attnArrDivEach x0 x2 (fun e => x3 (ix1 e)) (projArr x1 x4 (fun e => x5 (ix1 e)))
          (projArr x1 x6 (fun e => x7 (ix1 e))) := by
  funext i
  obtain ⟨p, r, e, rfl⟩ : ∃ (p : Fin 16) (r : Fin 2048) (e : Fin 160), i = ix3 p r e := ⟨i 0, i 1, i 2, eq_ix3 i⟩
  exact v25_at x0 x1 x2 x3 x4 x5 x6 x7 p r e

end Cert.ReferenceIdeal.RefValue

end
-- ==== Proof.lean ====
/-
  Single-head cross-attention with a residual: a two-call kernel against its plain reference, over the extended reals.

  Both programs project x to queries and y to keys and values (a row through a 160×160 matrix plus a bias), score every
  query row against the 2048 keys of its batch, take the row's maximum from −∞, exponentiate the differences, and sum.
  The kernel then forms the weighted sum of the values and multiplies it by `1 / L` (L the sum of the weights), while the
  reference divides every weight by L before the weighted sum; both add x. On the extended reals the two agree when
  the inputs are finite, which the precondition says: every projected entry is then a real number, hence every score, the
  maximum over the nonempty key set, every weight (a positive real) and L (a positive real), and
  `(∑ w·v)·(1/L) = ∑ (w/L)·v` is the distributive law of the reals.

  The kernel's result array is read off its run: the second call's write-backs, block by block, are the attention of the
  rows of x over the keys and values the first call left, and those are the projections of y; the reference's result is
  its run read one operation at a time. The frames are the programs' runs with the results forgotten; the idealisation
  rewrote nothing, so `preserves` has nothing to say.
-/
import proofs.«116099_g83305185673742_cont_9to1c4b_147_3_alg».proof.Defs
import proofs.«116099_g83305185673742_cont_9to1c4b_147_3_alg».proof.Proof.Gen.Kernel
import proofs.«116099_g83305185673742_cont_9to1c4b_147_3_alg».proof.Proof.Gen.Kernel.Skeleton
import proofs.«116099_g83305185673742_cont_9to1c4b_147_3_alg».proof.Proof.Gen.Kernel.Launch
import proofs.«116099_g83305185673742_cont_9to1c4b_147_3_alg».proof.Proof.Gen.Kernel.Points
import proofs.«116099_g83305185673742_cont_9to1c4b_147_3_alg».proof.Proof.Gen.Kernel.Frame
import proofs.«116099_g83305185673742_cont_9to1c4b_147_3_alg».proof.Proof.Gen.KernelIdeal
import proofs.«116099_g83305185673742_cont_9to1c4b_147_3_alg».proof.Proof.Gen.KernelIdeal.Skeleton
import proofs.«116099_g83305185673742_cont_9to1c4b_147_3_alg».proof.Proof.Gen.KernelIdeal.Launch
import proofs.«116099_g83305185673742_cont_9to1c4b_147_3_alg».proof.Proof.Gen.KernelIdeal.Points
import proofs.«116099_g83305185673742_cont_9to1c4b_147_3_alg».proof.Proof.Gen.KernelIdeal.Frame
import proofs.«116099_g83305185673742_cont_9to1c4b_147_3_alg».proof.Proof.Gen.ReferenceIdeal
import proofs.«116099_g83305185673742_cont_9to1c4b_147_3_alg».proof.Proof.Gen.Pre_finite_inputs
import proofs.«116099_g83305185673742_cont_9to1c4b_147_3_alg».proof.Proof.Gen.ReferenceIdeal.Run
import proofs.«116099_g83305185673742_cont_9to1c4b_147_3_alg».proof.Proof.Gen.ReferenceIdeal.Read
import proofs.«116099_g83305185673742_cont_9to1c4b_147_3_alg».proof.Proof.SpecLaws
import proofs.«116099_g83305185673742_cont_9to1c4b_147_3_alg».proof.Proof.Finite
import proofs.«116099_g83305185673742_cont_9to1c4b_147_3_alg».proof.Proof.KRun
import proofs.«116099_g83305185673742_cont_9to1c4b_147_3_alg».proof.Proof.Glue
import proofs.«116099_g83305185673742_cont_9to1c4b_147_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Attn

/-- The kernel as printed runs, and leaves its arguments alone. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the attention of x over y in their result arrays: the kernel's normalised once after the
    weighted sum, the reference's weight by weight, the same array over finite inputs. -/
theorem algebraic : Cert.algebraic_KernelIdeal_ReferenceIdeal := by
  intro m ρ m' ρ' hpre hagree
  refine ⟨fun c => attnArrMulInv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (fun e => m ((c.tc : Thread Cert.KernelIdeal.nD Cert.KernelIdeal.τ).loc Cert.KernelIdeal.main_arg3) (ix1 e))
      (projArr (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (fun e => m ((c.tc : Thread Cert.KernelIdeal.nD Cert.KernelIdeal.τ).loc Cert.KernelIdeal.main_arg5) (ix1 e)))
      (projArr (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (fun e => m ((c.tc : Thread Cert.KernelIdeal.nD Cert.KernelIdeal.τ).loc Cert.KernelIdeal.main_arg7) (ix1 e))), ?_, ?_⟩
  · exact (θ_run Cert.KernelIdeal.defs _ _).mono
      (fun r h c => ⟨(h c).1.trans (Cert.KernelIdeal.Glue.result_arr m ρ c), (h c).2⟩)
      (Cert.KernelIdeal.GenP.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    obtain ⟨r0, r1, r2, r3, r4, r5, r6, r7⟩ := real_of_finite _ _ _ _ _ _ _ _ (hpre c)
    rw [Cert.ReferenceIdeal.Read.val_main_v25_eq, Cert.ReferenceIdeal.RefValue.ref_arr, h0, h1, h2, h3, h4, h5, h6, h7]
    exact (attnArr_eq _ _ _ _ _ r0 r2 (fun e => r3 (ix1 e))
      (projArr_isReal _ _ _ r1 r4 (fun e => r5 (ix1 e))) (projArr_isReal _ _ _ r1 r6 (fun e => r7 (ix1 e)))).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
